-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32000 : Shape := ⟨3, ![4, 2048, 32000]⟩
abbrev S4x2048 : Shape := ⟨2, ![4, 2048]⟩
abbrev S_ : Shape := ⟨0, ![]⟩

class Facts : Prop where
  bcast_S_S4x2048x32000 : S_.BroadcastsInDim S4x2048x32000 (![] : Fin 0 → Fin S4x2048x32000.rank)
  reducesTo_S4x2048x32000_S_d0_1_2 : S4x2048x32000.ReducesTo [0, 1, 2] S_
  h_S_ : 0 < S_.numel
  reducesTo_S_S_d : S_.ReducesTo [] S_
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x2048x32000 .f32) (main_arg1 : IVec S4x2048 32) (main_arg2 : FVec F S_ .f32) : IVec S_ 1 :=
  let main_v0 : FVec F S4x2048x32000 .f32 := Host.absf main_arg0
  let main_cst : FVec F S_ .f32 := constant S_ .f32 0x7F800000#32
  let main_v1 : FVec F S4x2048x32000 .f32 := broadcastInDim S4x2048x32000 ![] bcast_S_S4x2048x32000 main_cst
  let main_v2 : IVec S4x2048x32000 1 := cmpf .olt main_v0 main_v1
  let main_c : IVec S_ 1 := constantI S_ 1 1#1
  let main_v3 : IVec S_ 1 := (fun x v => Host.reduce IntOp.andi x v reducesTo_S4x2048x32000_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_c_2 : IVec S_ 32 := constantI S_ 32 0#32
  let main_v8 : IVec S4x2048 32 := broadcastInDim S4x2048 ![] bcast_S_S4x2048 main_c_2
  let main_v9 : IVec S4x2048 1 := cmpi .sge main_arg1 main_v8
  let main_c_3 : IVec S_ 1 := constantI S_ 1 1#1
  let main_v10 : IVec S_ 1 := (fun x v => Host.reduce IntOp.andi x v reducesTo_S4x2048_S_d0_1 h_S_) main_v9 main_c_3
  let main_v11 : IVec S_ 1 := andi main_v7 main_v10
  let main_c_4 : IVec S_ 32 := constantI S_ 32 32000#32
  let main_v12 : IVec S4x2048 32 := broadcastInDim S4x2048 ![] bcast_S_S4x2048 main_c_4
  let main_v13 : IVec S4x2048 1 := cmpi .slt main_arg1 main_v12
  let main_c_5 : IVec S_ 1 := constantI S_ 1 1#1
  let main_v14 : IVec S_ 1 := (fun x v => Host.reduce IntOp.andi x v reducesTo_S4x2048_S_d0_1 h_S_) main_v13 main_c_5
  let main_v15 : IVec S_ 1 := andi main_v11 main_v14
  main_v15
-- ==== Kernel.lean ====
abbrev S4x2048x32000 : Shape := ⟨3, ![4, 2048, 32000]⟩
abbrev S4x2048 : Shape := ⟨2, ![4, 2048]⟩
abbrev S_ : Shape := ⟨0, ![]⟩
abbrev S8192x32000 : Shape := ⟨2, ![8192, 32000]⟩
abbrev S8192x1 : Shape := ⟨2, ![8192, 1]⟩
abbrev S2x8x128 : Shape := ⟨3, ![2, 8, 128]⟩
abbrev S32x32000 : Shape := ⟨2, ![32, 32000]⟩
abbrev S32x1 : Shape := ⟨2, ![32, 1]⟩
abbrev S1x8x128 : Shape := ⟨3, ![1, 8, 128]⟩
abbrev S8x128 : Shape := ⟨2, ![8, 128]⟩
abbrev S32 : Shape := ⟨1, ![32]⟩
abbrev S1 : Shape := ⟨1, ![1]⟩
abbrev S1x1 : Shape := ⟨2, ![1, 1]⟩
abbrev S2x1x1 : Shape := ⟨3, ![2, 1, 1]⟩
abbrev S2 : Shape := ⟨1, ![2]⟩

abbrev nBuf : Space → Nat
  | .hbm => 17
  | .vmem => 10
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S_, .f32⟩
  | .hbm, ⟨3, _⟩ => ⟨S8192x32000, .f32⟩
  | .hbm, ⟨4, _⟩ => ⟨S8192x1, .i32⟩
  | .hbm, ⟨5, _⟩ => ⟨S2x8x128, .f32⟩
  | .hbm, ⟨6, _⟩ => ⟨S2x8x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x1, .i32⟩
  | .local _ .vmem, ⟨3, _⟩ => ⟨S32x1, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | .local _ .vmem, ⟨9, _⟩ => ⟨S8x128, .f32⟩
  | _, _ => ⟨S4x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v49 : BitVec 1 := Scalar.cmpi .eq arg1 c127_i32
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x2048x32000_S8192x32000 : S4x2048x32000.ShapeCasts S8192x32000
  shapeCasts_S4x2048_S8192x1 : S4x2048.ShapeCasts S8192x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x32000_S32 : S32x32000.Reduces [1] S32
  shapeCasts_S32_S32x1 : S32.ShapeCasts S32x1
  broadcasts_S32x1_S32x32000 : S32x1.Broadcasts S32x32000
  iota_S32x32000_d1_w32 : S32x32000.Iotas .tc 32 [1]
  natLt_1_32 : 1 < 32
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S8192x32000.size a
  hwx0_0 : ∀ i : grid0.Coords, EltTy.bits .f32 = 32 ∨ (Rect.block (s := S8192x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S8192x1.size a
  hwx0_1 : ∀ i : grid0.Coords, EltTy.bits .i32 = 32 ∨ (Rect.block (s := S8192x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_v0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x32000 : Shape := ⟨3, ![4, 2048, 32000]⟩
abbrev S4x2048 : Shape := ⟨2, ![4, 2048]⟩
abbrev S_ : Shape := ⟨0, ![]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S_, .f32⟩
  | .hbm, ⟨3, _⟩ => ⟨S_, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S4x2048x1, .f32⟩
  | .hbm, ⟨9, _⟩ => ⟨S4x2048x32000, .f32⟩
  | .hbm, ⟨10, _⟩ => ⟨S4x2048x32000, .f32⟩
  | .hbm, ⟨11, _⟩ => ⟨S4x2048x32000, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x1, .f32⟩
  | .hbm, ⟨16, _⟩ => ⟨S4x2048x32000, .f32⟩
  | .hbm, ⟨17, _⟩ => ⟨S4x2048x32000, .f32⟩
  | .hbm, ⟨18, _⟩ => ⟨S4x2048x1, .i32⟩
  | .hbm, ⟨19, _⟩ => ⟨S_, .i32⟩
  | .hbm, ⟨20, _⟩ => ⟨S4x2048x1, .i32⟩
  | .hbm, ⟨21, _⟩ => ⟨S4x2048x1, .i1⟩
  | .hbm, ⟨22, _⟩ => ⟨S_, .i32⟩
  | .hbm, ⟨23, _⟩ => ⟨S4x2048x1, .i32⟩
  | .hbm, ⟨24, _⟩ => ⟨S4x2048x1, .i32⟩
  | .hbm, ⟨25, _⟩ => ⟨S4x2048x1, .i32⟩
  | .hbm, ⟨26, _⟩ => ⟨S4x2048x1x1, .i32⟩
  | .hbm, ⟨27, _⟩ => ⟨S1, .i32⟩
  | .hbm, ⟨28, _⟩ => ⟨S_, .i32⟩
  | .hbm, ⟨29, _⟩ => ⟨S4x2048x1x1, .i32⟩
  | .hbm, ⟨30, _⟩ => ⟨S4x2048x1x1, .i1⟩
  | .hbm, ⟨31, _⟩ => ⟨S1x1x1x1, .i32⟩
  | .hbm, ⟨32, _⟩ => ⟨S4x2048x1x1, .i32⟩
  | .hbm, ⟨33, _⟩ => ⟨S4x2048x1x1, .i1⟩
  | .hbm, ⟨34, _⟩ => ⟨S4x2048x1x1, .i1⟩
  | .hbm, ⟨35, _⟩ => ⟨S_, .i1⟩
  | .hbm, ⟨36, _⟩ => ⟨S4x2048x1, .i1⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048, .f32⟩
  | .hbm, ⟨42, _⟩ => ⟨S4x2048, .f32⟩
  | .hbm, ⟨43, _⟩ => ⟨S_, .i32⟩
  | .hbm, ⟨44, _⟩ => ⟨S4x2048, .i32⟩
  | .hbm, ⟨45, _⟩ => ⟨S4x2048, .i1⟩
  | .hbm, ⟨46, _⟩ => ⟨S4x2048, .f32⟩
  | .hbm, ⟨47, _⟩ => ⟨S4x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩

abbrev nD : Nat := 1
abbrev τ : Topo := Topo.v7x

variable {F : FTy → Type} [FloatOps F]

class Facts₀ : Prop where
  reducesTo_S4x2048x32000_S4x2048_d2 : S4x2048x32000.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  reducesTo_S4x2048_S_d0_1 : S4x2048.ReducesTo [0, 1] S_
  gather_S4x2048x32000_S4x2048x1x1_S4x2048x1_n_2_01_01_2_3_111_wf : GatherDims.WF S4x2048x32000 S4x2048x1x1 S4x2048x1 [] [2] [0, 1] [2] [0, 1] 3 ![1, 1, 1]

variable [Facts₀]

def gather_S4x2048x32000_S4x2048x1x1_S4x2048x1_n_2_01_01_2_3_111 : GatherDims S4x2048x32000 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x32000_S4x2048x1x1_S4x2048x1_n_2_01_01_2_3_111_wf

class Facts : Prop extends Facts₀ where

variable [Facts]
-- ==== Proof.Pieces.lean ====
/-
  What each case of the body leaves in the carried totals and in the output blocks, as pure terms.

  The body has three control cases over the inner grid coordinate: A (first step: reset, then add), B (a middle step:
  add), C (last step: add, then copy both totals to the output blocks). In each case a total's staging contents after
  the body are the store's value read back: the body's payload of the block of logits, the block of labels and the
  total the point before left (the reset value in case A).
-/
import proofs.«408799_j59631325938458_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S32x32000 .f32) (harg2 : arg2.IsWhole) (arg3 : Memref sig .tc .vmem S32x1 .i32) (harg3 : arg3.IsWhole)
  (arg4 : Memref sig .tc .vmem S1x8x128 .f32) (harg4 : arg4.IsWhole) (arg5 : Memref sig .tc .vmem S1x8x128 .f32) (harg5 : arg5.IsWhole)
  (arg6 : Memref sig .tc .vmem S8x128 .f32) (harg6 : arg6.IsWhole) (arg7 : Memref sig .tc .vmem S8x128 .f32) (harg7 : arg7.IsWhole)
  (x0 : Vec F S32x32000 .f32) (x1 : Vec F S32x1 .i32) (xs0 xs1 : Vec F S8x128 .f32)

/-- A middle step leaves in the first total the payload over what the point before left. -/
theorem sB0 (hc0 : ¬cond0_0 i) (hc1 : ¬cond0_1 i) :
    sout0_B_0 c i arg2 harg2 arg3 harg3 arg4 harg4 arg5 harg5 arg6 harg6 arg7 harg7 hc0 hc1 x0 x1 xs0 xs1 = k0_pay1 (k0_pay10 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S32x32000) hz2, View.ld_unit_zero (S := S32x1) hz2, View.ld_unit_zero (S := S8x128) hz2]

/-- A middle step leaves in the second total the count's payload over what the point before left. -/
theorem sB1 (hc0 : ¬cond0_0 i) (hc1 : ¬cond0_1 i) :
    sout0_B_1 c i arg2 harg2 arg3 harg3 arg4 harg4 arg5 harg5 arg6 harg6 arg7 harg7 hc0 hc1 x0 x1 xs0 xs1 = k0_pay2 (k0_pay9 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S32x32000) hz2, View.ld_unit_zero (S := S32x1) hz2, View.ld_unit_zero (S := S8x128) hz2]

/-- The first step resets the first total, then adds: the payload over the reset value. -/
theorem sA0 (hc0 : cond0_0 i) (hc1 : ¬cond0_1 i) :
    sout0_A_0 c i arg2 harg2 arg3 harg3 arg4 harg4 arg5 harg5 arg6 harg6 arg7 harg7 hc0 hc1 x0 x1 = k0_pay1 (k0_pay10 x0 x1 k0_pay5) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S8x128) hz2]
  simp only [View.readAt_eq_ld, harg2.read_unread, harg3.read_unread, harg6.read_unread, harg7.read_unread, View.ld_unit_zero (S := S32x32000) hz2, View.ld_unit_zero (S := S32x1) hz2, View.ld_unit_zero (S := S8x128) hz2, View.readCov_unit_zero (S := S8x128) _ hz2]

/-- The first step resets the second total, then adds the count: the count's payload over the reset value. -/
theorem sA1 (hc0 : cond0_0 i) (hc1 : ¬cond0_1 i) :
    sout0_A_1 c i arg2 harg2 arg3 harg3 arg4 harg4 arg5 harg5 arg6 harg6 arg7 harg7 hc0 hc1 x0 x1 = k0_pay2 (k0_pay9 x1) k0_pay6 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x128) hz2]
  simp only [View.readAt_eq_ld, harg2.read_unread, harg3.read_unread, harg6.read_unread, harg7.read_unread, View.ld_unit_zero (S := S32x32000) hz2, View.ld_unit_zero (S := S32x1) hz2, View.ld_unit_zero (S := S8x128) hz2, View.readCov_unit_zero (S := S8x128) _ hz2]

/-- The last step adds to the first total as a middle step does. -/
theorem sC0 (hc0 : ¬cond0_0 i) (hc1 : cond0_1 i) :
    sout0_C_0 c i arg2 harg2 arg3 harg3 arg4 harg4 arg5 harg5 arg6 harg6 arg7 harg7 hc0 hc1 x0 x1 xs0 xs1 = k0_pay1 (k0_pay10 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S32x32000) hz2, View.ld_unit_zero (S := S32x1) hz2, View.ld_unit_zero (S := S8x128) hz2, View.readCov_unit_zero (S := S8x128) _ hz2]

/-- The last step adds to the second total as a middle step does. -/
theorem sC1 (hc0 : ¬cond0_0 i) (hc1 : cond0_1 i) :
    sout0_C_1 c i arg2 harg2 arg3 harg3 arg4 harg4 arg5 harg5 arg6 harg6 arg7 harg7 hc0 hc1 x0 x1 xs0 xs1 = k0_pay2 (k0_pay9 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S32x32000) hz2, View.ld_unit_zero (S := S32x1) hz2, View.ld_unit_zero (S := S8x128) hz2, View.readCov_unit_zero (S := S8x128) _ hz2]

/-- The last step leaves in the first output block the first total after its addition, a unit axis in front. -/
theorem oC2 (hc0 : ¬cond0_0 i) (hc1 : cond0_1 i) :
    out0_C_2 c i arg2 harg2 arg3 harg3 arg4 harg4 arg5 harg5 arg6 harg6 arg7 harg7 hc0 hc1 x0 x1 xs0 xs1 = k0_pay3 (k0_pay1 (k0_pay10 x0 x1 xs0)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S32x32000) hz2, View.ld_unit_zero (S := S32x1) hz2, View.ld_unit_zero (S := S8x128) hz2, View.readCov_unit_zero (S := S8x128) _ hz2]

/-- The last step leaves in the second output block the second total after its addition, a unit axis in front. -/
theorem oC3 (hc0 : ¬cond0_0 i) (hc1 : cond0_1 i) :
    out0_C_3 c i arg2 harg2 arg3 harg3 arg4 harg4 arg5 harg5 arg6 harg6 arg7 harg7 hc0 hc1 x0 x1 xs0 xs1 = k0_pay4 (k0_pay2 (k0_pay9 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S32x32000) hz2, View.ld_unit_zero (S := S32x1) hz2, View.ld_unit_zero (S := S8x128) hz2, View.readCov_unit_zero (S := S8x128) _ hz2]

end Cert.KernelIdeal.Pieces

end
-- ==== Proof.Spec.lean ====
/-
  Masked cross-entropy of one row of logits, on the extended reals.

  A row `x` has 32000 logits and a label word `w`. The row's loss is the negated log-probability of the
  labelled column under a softmax shifted by the row's maximum,
      nll x w = -((x[w] - max x) - log (∑ k, exp (x[k] - max x))),
  and a row whose label is the padding label `0` is dropped by the factor `keep w ∈ {0, 1}`.
  The labelled logit is written as the sum over the columns that keeps the one column whose number is
  the label: for a label in range this is that column's logit (`pick_eq`), and it is the form a
  compare-and-sum takes without any fact about the label.
-/
import Idealize.ShloMosaic.PureOps.Ideal
import Idealize.ShloMosaic.PureOps.Ideal.Laws
import Mathlib.Data.Finset.Fold

noncomputable section

namespace Cert.MaskedCE

open Idealize.ShloMosaic

/-- The row's maximum: the fold of `max` over its columns from the pattern of `-∞`. -/
def rowMax (x : Fin 32000 → EReal) : EReal :=
  (Finset.univ : Finset (Fin 32000)).fold max (Ideal.ofBits .f32 0xFF800000#32) x

/-- The softmax denominator after the shift by the row's maximum. -/
def sumExp (x : Fin 32000 → EReal) : EReal := ∑ k : Fin 32000, Ideal.exp (x k - rowMax x)

/-- The logit the label word names: the sum over the columns of the logit where the column's number, as a
    32-bit word, is the label, and of zero elsewhere. -/
def pick (x : Fin 32000 → EReal) (w : BitVec 32) : EReal :=
  ∑ k : Fin 32000, if BitVec.ofNat 32 k.val = w then x k else 0

/-- The row's negative log-likelihood. -/
def nll (x : Fin 32000 → EReal) (w : BitVec 32) : EReal :=
  -((pick x w - rowMax x) - Ideal.log (sumExp x))

/-- A row counts unless its label is the padding label `0`. -/
def keep (w : BitVec 32) : EReal := if w = 0#32 then 0 else 1

/-- What a row adds to the numerator of the mean. -/
def term (x : Fin 32000 → EReal) (w : BitVec 32) : EReal := nll x w * keep w

/-- For a label that is the number of column `k`, the compare-and-sum is that column's logit: every other
    column's number is a different word (both are below `2 ^ 32`), so its summand is zero. -/
theorem pick_eq (x : Fin 32000 → EReal) (w : BitVec 32) (k : Fin 32000) (h : w = BitVec.ofNat 32 k.val) :
    pick x w = x k := by
  unfold pick
  rw [Finset.sum_eq_single k]
  · rw [if_pos h.symm]
  · intro b _ hb
    rw [if_neg]
    intro hbw
    apply hb
    have e : BitVec.ofNat 32 b.val = BitVec.ofNat 32 k.val := hbw.trans h
    have e' := congrArg BitVec.toNat e
    simp only [BitVec.toNat_ofNat] at e'
    have hb' := b.isLt
    have hk' := k.isLt
    apply Fin.ext
    omega
  · intro hk; exact absurd (Finset.mem_univ k) hk

/-- The fold of `max` starts from its initial value, so taking the maximum with that value again changes
    nothing. -/
theorem max_init_rowMax (x : Fin 32000 → EReal) :
    max (Ideal.ofBits .f32 0xFF800000#32) (rowMax x) = rowMax x :=
  max_eq_right ((Finset.le_fold_max _).mpr (Or.inl le_rfl))

/-- Subtracting from zero negates, at every extended real. -/
theorem zero_sub_ereal (a : EReal) : (0 : EReal) - a = -a := by
  rw [sub_eq_add_neg, zero_add]

end Cert.MaskedCE

end
-- ==== Proof.Result.lean ====
/-
  The masked mean cross-entropy of the whole batch, as one closed form on the extended reals.

  The logits are an array `x` of shape [4, 2048, 32000] and the labels an array `t` of shape [4, 2048] of
  32-bit words. Token `i = (b, s)` has the row `rowOf x i` of 32000 logits and the label `t i`. The loss is
      (∑ i, nll (row i) (t i) · keep (t i)) / (∑ i, keep (t i)) / scale,
  the two quotients being the extended reals' quotient as the float operations read it. Both programs are
  shown to compute this one term; they differ only in the grouping of the two sums.
-/
import proofs.«408799_j59631325938458_2_alg».proof.Proof.Spec
import Idealize.ShloMosaic.Lib.ValueIdx

noncomputable section

namespace Cert.MaskedCE

open Idealize.ShloMosaic Idealize.ShloMosaic.ValueIdx

/-- Token `i`'s row of logits. -/
def rowOf (x : (⟨3, ![4, 2048, 32000]⟩ : Shape).Idx → EReal) (i : (⟨2, ![4, 2048]⟩ : Shape).Idx) : Fin 32000 → EReal :=
  fun k => x (ix3 (i 0) (i 1) k)

/-- The numerator: the kept rows' negative log-likelihoods, summed over the tokens. -/
def numer (x : (⟨3, ![4, 2048, 32000]⟩ : Shape).Idx → EReal) (t : (⟨2, ![4, 2048]⟩ : Shape).Idx → BitVec 32) : EReal :=
  ∑ i : (⟨2, ![4, 2048]⟩ : Shape).Idx, term (rowOf x i) (t i)

/-- The denominator: the number of kept rows. -/
def denom (t : (⟨2, ![4, 2048]⟩ : Shape).Idx → BitVec 32) : EReal :=
  ∑ i : (⟨2, ![4, 2048]⟩ : Shape).Idx, keep (t i)

/-- The loss, a rank-0 array: the mean over the kept rows, divided by the scale. -/
def loss (x : (⟨3, ![4, 2048, 32000]⟩ : Shape).Idx → EReal) (t : (⟨2, ![4, 2048]⟩ : Shape).Idx → BitVec 32)
    (s : (⟨0, ![]⟩ : Shape).Idx → EReal) : (⟨0, ![]⟩ : Shape).Idx → EReal :=
  fun j => Ideal.div (Ideal.div (numer x t) (denom t)) (s j)

/-- The first coordinate of the token a flat row number names (taken modulo 4, so total in the row number). -/
def tokA (R : Nat) : Fin 4 := ⟨R / 2048 % 4, Nat.mod_lt _ (by decide)⟩
/-- Its second coordinate. -/
def tokB (R : Nat) : Fin 2048 := ⟨R % 2048, Nat.mod_lt _ (by decide)⟩

/-- The token a flat row number names: row `R` of the [8192, 32000] view is token `(R / 2048, R % 2048)`.
    Total in `R` (the first coordinate is taken modulo 4), so that sums over row numbers need no bound. -/
def tok (R : Nat) : (⟨2, ![4, 2048]⟩ : Shape).Idx := ix2 (tokA R) (tokB R)

/-- The row of logits of the token a flat row number names, column by column. -/
theorem rowOf_tok (x : (⟨3, ![4, 2048, 32000]⟩ : Shape).Idx → EReal) (R : Nat) :
    rowOf x (tok R) = fun k => x (ix3 (tokA R) (tokB R) k) := rfl

end Cert.MaskedCE

end
-- ==== Proof.Payload.lean ====
/-
  The kernel body's arithmetic, read at one element, at the extended reals.

  The body takes a block of 32 rows of logits `x` ([32, 32000]), the block's 32 label words `tw` ([32, 1]) and the
  two running totals (each an [8, 128] tile holding one number everywhere). It adds to every element of the first
  tile the block's sum of `nll row label · keep label` and to every element of the second the block's count of
  kept rows. This module states exactly that, element by element, for the pure terms the body's stores carry.

  The reading goes stage by stage. A reduction along the columns, read at row `r`, ranges over the indices `(r, k)`;
  the reduction along the rows, read at its one index, ranges over the indices `(r, 0)`. A column of 32 numbers
  viewed as [32, 1] keeps row `r` at `(r, 0)`, and spread over 32000 columns it repeats that number along the row;
  a [1, 1] value spread over the [8, 128] tile is that one number everywhere. With these, row `r` of the body is the
  row's maximum, the sum of the shifted exponentials, the compare-and-sum that picks the labelled logit, and the mask
  bit of the label, combined as the specification's `nll` and `keep` combine them.
-/
import proofs.«408799_j59631325938458_2_alg».proof.Proof.Gen.KernelIdeal.Skeleton
import proofs.«408799_j59631325938458_2_alg».proof.Proof.Result
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Idealize.ShloMosaic Idealize.ShloMosaic.ValueIdx Cert.KernelIdeal Cert.KernelIdeal.Gen Cert.MaskedCE

/-- Row `r` of a block of logits. -/
def blkRow (x : Vec Ideal S32x32000 .f32) (r : Fin 32) : Fin 32000 → EReal := fun k => x (ix2 r k)

/-! ## Which source indices a reduced index ranges over -/

/-- Reducing [32, 32000] along the columns: over row `r` of the result lie the indices `(r, k)`. -/
theorem lift_col (r : Fin 32) (k : Fin 32000) :
    reduces_S32x32000_S32.lift (ix1 r) k = ix2 r k := by
  funext c
  match c with
  | ⟨0, _⟩ => exact Fin.ext rfl
  | ⟨1, _⟩ => exact Fin.ext rfl

/-- Reducing [32, 1] along the rows: over the one index of the result lie the indices `(r, 0)`. -/
theorem lift_row (r : Fin 32) :
    reduces_S32x1_S1.lift (ix1 (0 : Fin 1)) r = ix2 r (0 : Fin 1) := by
  funext c
  match c with
  | ⟨0, _⟩ => exact Fin.ext rfl
  | ⟨1, _⟩ => exact Fin.ext rfl

/-! ## The three reductions, read at an index -/

/-- A sum along the columns, at row `r`, is the sum of that row's 32000 entries. -/
theorem laneSum_apply (v : FVec Ideal S32x32000 .f32) (r : Fin 32) :
    multiReduction (F := Ideal) .add [1] S32 v 0x00000000#32 reduces_S32x32000_S32 (.inl rfl) rfl (ix1 r)
      = ∑ k : Fin 32000, v (ix2 r k) := by
  refine (Ideal.multiReduction_add_single v _ reduces_S32x32000_S32 _ _ (ix1 r)).trans ?_
  exact Finset.sum_congr rfl fun k _ => congrArg v (lift_col r k)

/-- A sum along the rows of a [32, 1] column is the sum of its 32 entries. -/
theorem rowSum_apply (v : FVec Ideal S32x1 .f32) :
    multiReduction (F := Ideal) .add [0] S1 v 0x00000000#32 reduces_S32x1_S1 (.inl rfl) rfl (ix1 (0 : Fin 1))
      = ∑ r : Fin 32, v (ix2 r (0 : Fin 1)) := by
  refine (Ideal.multiReduction_add_single v _ reduces_S32x1_S1 _ _ (ix1 (0 : Fin 1))).trans ?_
  exact Finset.sum_congr rfl fun r _ => congrArg v (lift_row r)

/-- A maximum along the columns from the pattern of `-∞`, at row `r`, is the specification's maximum of that row. -/
theorem laneMax_apply (x : FVec Ideal S32x32000 .f32) (r : Fin 32) :
    multiReduction (F := Ideal) .maximumf [1] S32 x 0xFF800000#32 reduces_S32x32000_S32 (.inl rfl) rfl (ix1 r)
      = rowMax (blkRow x r) := by
  refine (Ideal.multiReduction_maximumf_single x _ reduces_S32x32000_S32 _ _ (ix1 r)).trans ?_
  have e : (x ∘ reduces_S32x32000_S32.lift (ix1 r)) = blkRow x r := funext fun k => congrArg x (lift_col r k)
  rw [e]
  rfl

/-! ## The changes of shape, read at an index -/

/-- 32 numbers viewed as a [32, 1] column: entry `(r, 0)` is number `r` (row-major position `r · 1 + 0`). -/
theorem colCast_apply {α : Type} (v : S32.Idx → α) (r : Fin 32) (u : Fin 1) :
    shapeCast S32x1 v shapeCasts_S32_S32x1 (ix2 r u) = v (ix1 r) :=
  shapeCast_apply v _ _ _ (by
    have hu : u.val = 0 := by omega
    rw [Shape.rowMajor_val_one, Shape.rowMajor_val_two]
    show r.val = r.val * 1 + u.val
    omega)

/-- A [32, 1] column spread over 32000 columns repeats entry `(r, 0)` along row `r`. -/
theorem colBcast_apply {α : Type} (v : S32x1.Idx → α) (r : Fin 32) (k : Fin 32000) :
    broadcastTo S32x32000 v broadcasts_S32x1_S32x32000 (ix2 r k) = v (ix2 r (0 : Fin 1)) := by
  refine broadcastTo_apply v _ (ix2 r k) (ix2 r (0 : Fin 1)) fun ax => ?_
  match ax with
  | ⟨0, _⟩ => rfl
  | ⟨1, _⟩ => rfl

/-- One number viewed as [1, 1]. -/
theorem oneCast_apply {α : Type} (v : S1.Idx → α) :
    shapeCast S1x1 v shapeCasts_S1_S1x1 (ix2 (0 : Fin 1) (0 : Fin 1)) = v (ix1 (0 : Fin 1)) :=
  shapeCast_a_1a_apply v _ _ _

/-- A [1, 1] value spread over the [8, 128] tile is that value at every element. -/
theorem tileBcast_apply {α : Type} (v : S1x1.Idx → α) (a : Fin 8) (b : Fin 128) :
    broadcastTo S8x128 v broadcasts_S1x1_S8x128 (ix2 a b) = v (ix2 (0 : Fin 1) (0 : Fin 1)) := by
  refine broadcastTo_apply v _ (ix2 a b) (ix2 (0 : Fin 1) (0 : Fin 1)) fun ax => ?_
  match ax with
  | ⟨0, _⟩ => rfl
  | ⟨1, _⟩ => rfl

/-- The column counter at `(r, k)` is the word of `k`. -/
theorem iota_apply (r : Fin 32) (k : Fin 32000) :
    iota .tc S32x32000 32 [1] iota_S32x32000_d1_w32 (ix2 r k) = BitVec.ofNat 32 k.val :=
  iota_single_apply _ _ _ _ _ _

/-! ## Words -/

/-- The mask of a label: "label ≠ 0" as a bit, widened to 32 bits and read as a signed integer, is `0` for the
    padding label and `1` for every other: the specification's `keep`. -/
theorem keep_word (w : BitVec 32) :
    FloatOps.sitofp (F := Ideal) .f32 ((IntOp.cmpi .ne w 0#32).setWidth 32) = keep w := by
  unfold keep
  by_cases h : w = 0#32
  · subst h
    rw [if_pos rfl]
    show (((((IntOp.cmpi .ne (0#32) 0#32).setWidth 32).toInt : ℤ) : ℝ) : EReal) = 0
    have : ((IntOp.cmpi .ne (0#32 : BitVec 32) 0#32).setWidth 32).toInt = 0 := by decide
    rw [this]; simp
  · rw [if_neg h]
    have hc : IntOp.cmpi .ne w 0#32 = 1#1 := by
      show BitVec.ofBool (w != 0#32) = 1#1
      rw [bne_iff_ne.mpr h]; rfl
    rw [hc]
    show (((((1#1 : BitVec 1).setWidth 32).toInt : ℤ) : ℝ) : EReal) = 1
    have : ((1#1 : BitVec 1).setWidth 32).toInt = 1 := by decide
    rw [this]; simp

/-- A select on "the two words are equal" is the `if` on their equality. -/
theorem pick_word (a w : BitVec 32) (y : EReal) :
    Scalar.select (IntOp.cmpi .eq a w) y (0 : EReal) = if a = w then y else 0 := by
  show (if BitVec.ofBool (a == w) = 1#1 then y else 0) = _
  by_cases h : a = w
  · rw [if_pos h, beq_iff_eq.mpr h]; exact if_pos rfl
  · rw [if_neg h, beq_eq_false_iff_ne.mpr h]; exact if_neg (by decide)

/-! ## Pointwise operations the index passes through, and the zero word -/

/-- An integer comparison at an index compares the elements. -/
theorem cmpi_apply {s : Shape} {w : Nat} (p : CmpIPredicate) (u v : IVec s w) (i : s.Idx) :
    cmpi p u v i = IntOp.cmpi p (u i) (v i) := rfl

/-- An exponential at an index is the extended reals' exponential of the element. -/
theorem exp_apply {s : Shape} {φ : FTy} (v : FVec Ideal s φ) (i : s.Idx) : exp v i = Ideal.exp (v i) := rfl

/-- A logarithm at an index is the extended reals' logarithm of the element. -/
theorem log_apply {s : Shape} {φ : FTy} (v : FVec Ideal s φ) (i : s.Idx) : log v i = Ideal.log (v i) := rfl

/-- The zero word denotes `0`. -/
theorem zero_word : Scalar.ofBits (F := Ideal) .f32 0x00000000#32 = (0 : EReal) := Ideal.ofBits_zero_f32

/-! ## The stages of one row -/

/-- The compare-and-sum at row `r`: the sum over the columns of the logit where the column's number is the label and
    of zero elsewhere, the specification's `pick`. -/
theorem pickLane_apply (x : FVec Ideal S32x32000 .f32) (tw : IVec S32x1 32) (r : Fin 32) :
    multiReduction (F := Ideal) .add [1] S32
        (select (cmpi .eq (iota .tc S32x32000 32 [1] iota_S32x32000_d1_w32)
            (broadcastTo S32x32000 tw broadcasts_S32x1_S32x32000))
          x (broadcast S32x32000 (Scalar.ofBits (F := Ideal) .f32 0x00000000#32)))
        0x00000000#32 reduces_S32x32000_S32 (.inl rfl) rfl (ix1 r)
      = pick (blkRow x r) (tw (ix2 r (0 : Fin 1))) := by
  rw [laneSum_apply]
  unfold pick blkRow
  refine Finset.sum_congr rfl fun k _ => ?_
  rw [select_apply, cmpi_apply, iota_apply, colBcast_apply, broadcast_apply, zero_word]
  exact pick_word _ _ _

/-- The sum at row `r` of the exponentials of the logits shifted by the row's maximum: the specification's
    `sumExp`. -/
theorem expLane_apply (x : FVec Ideal S32x32000 .f32) (r : Fin 32) :
    multiReduction (F := Ideal) .add [1] S32
        (exp (subf x (broadcastTo S32x32000
          (shapeCast S32x1
            (multiReduction (F := Ideal) .maximumf [1] S32 x 0xFF800000#32 reduces_S32x32000_S32 (.inl rfl) rfl)
            shapeCasts_S32_S32x1)
          broadcasts_S32x1_S32x32000)))
        0x00000000#32 reduces_S32x32000_S32 (.inl rfl) rfl (ix1 r)
      = sumExp (blkRow x r) := by
  rw [laneSum_apply]
  unfold sumExp
  refine Finset.sum_congr rfl fun k _ => ?_
  rw [exp_apply, subf_apply, colBcast_apply, colCast_apply, laneMax_apply]
  rfl

/-- The mask column at row `r` is `keep` of that row's label. -/
theorem pay8_apply (tw : Vec Ideal S32x1 .i32) (r : Fin 32) :
    k0_pay8 (F := Ideal) tw (ix2 r (0 : Fin 1)) = keep (tw (ix2 r (0 : Fin 1))) := by
  unfold k0_pay8 k0_pay7
  simp only [shapeCast_self]
  exact keep_word _

/-! ## The payloads -/

/-- The first running total after the body: every element gains the block's sum of the kept rows' losses. -/
theorem pay10_apply (x : Vec Ideal S32x32000 .f32) (tw : Vec Ideal S32x1 .i32) (acc : Vec Ideal S8x128 .f32)
    (j : S8x128.Idx) :
    k0_pay10 (F := Ideal) x tw acc j = acc j + ∑ r : Fin 32, term (blkRow x r) (tw (ix2 r (0 : Fin 1))) := by
  obtain ⟨a, b, rfl⟩ : ∃ (a : Fin 8) (b : Fin 128), j = ix2 a b := ⟨j 0, j 1, eq_ix2 j⟩
  unfold k0_pay10 k0_pay7
  -- the element of the tile is the accumulator's plus the one number the row sum produces
  simp only [shapeCast_self, addf_apply, tileBcast_apply, oneCast_apply]
  rw [rowSum_apply]
  refine congrArg (fun t => acc (ix2 a b) + t) (Finset.sum_congr rfl fun r _ => ?_)
  -- row `r`: (0 - ((pick - max) - log sumExp)) · keep
  simp only [mulf_apply, subf_apply, broadcast_apply, colCast_apply, log_apply, pay8_apply]
  rw [pickLane_apply, laneMax_apply, expLane_apply, zero_word, zero_sub_ereal]
  rfl

/-- The second running total after the body: every element gains the block's number of kept rows. -/
theorem pay2_pay9_apply (tw : Vec Ideal S32x1 .i32) (acc : Vec Ideal S8x128 .f32) (j : S8x128.Idx) :
    k0_pay2 (F := Ideal) (k0_pay9 (F := Ideal) tw) acc j = acc j + ∑ r : Fin 32, keep (tw (ix2 r (0 : Fin 1))) := by
  obtain ⟨a, b, rfl⟩ : ∃ (a : Fin 8) (b : Fin 128), j = ix2 a b := ⟨j 0, j 1, eq_ix2 j⟩
  unfold k0_pay2 k0_pay9
  simp only [shapeCast_self, addf_apply, tileBcast_apply, oneCast_apply]
  rw [rowSum_apply]
  exact congrArg (fun t => acc (ix2 a b) + t) (Finset.sum_congr rfl fun r _ => pay8_apply tw r)

/-- The reset value of the first total is zero everywhere. -/
theorem pay5_apply (j : S8x128.Idx) : k0_pay5 (F := Ideal) j = 0 := by
  unfold k0_pay5
  simp only [shapeCast_self, broadcast_apply]
  exact zero_word

/-- The reset value of the second total is zero everywhere. -/
theorem pay6_apply (j : S8x128.Idx) : k0_pay6 (F := Ideal) j = 0 := by
  unfold k0_pay6
  simp only [shapeCast_self, broadcast_apply]
  exact zero_word

variable {F : FTy → Type} [FloatOps F]

/-- A cast of a tile to its own shape is the tile. -/
theorem pay1_eq (v : FVec F S8x128 .f32) : k0_pay1 (F := F) v = v := by
  unfold k0_pay1
  exact shapeCast_self v _

/-- The first output block is the first total with a unit axis in front. -/
theorem pay3_apply (v : Vec F S8x128 .f32) (a : Fin 8) (b : Fin 128) :
    k0_pay3 (F := F) v (ix3 (0 : Fin 1) a b) = v (ix2 a b) := by
  unfold k0_pay3
  exact shapeCast_ab_1ab_apply v _ _ _ _

/-- The second output block is the second total with a unit axis in front. -/
theorem pay4_apply (v : Vec F S8x128 .f32) (a : Fin 8) (b : Fin 128) :
    k0_pay4 (F := F) v (ix3 (0 : Fin 1) a b) = v (ix2 a b) := by
  unfold k0_pay4
  exact shapeCast_ab_1ab_apply v _ _ _ _

end Cert.KernelIdeal.PayloadValue

end
-- ==== Proof.Accum.lean ====
/-
  The two running totals after each grid point, as sums of the blocks' contributions.

  Point `n` of the 256 points adds to the first total the block's sum `addN n` of the kept rows' losses and to the
  second the block's count `addD n` of kept rows; at the points `n ≡ 0 (mod 128)` the totals are first reset to
  zero. So after point `128 · q + j` each total holds, in every element, zero plus the sum of its addends over the
  points `128 · q … 128 · q + j`; and the last point of a run copies the totals into the output blocks.
-/
import proofs.«408799_j59631325938458_2_alg».proof.Proof.Pieces
import proofs.«408799_j59631325938458_2_alg».proof.Proof.Payload
import Idealize.ShloMosaic.Lib.Pipeline.Value

noncomputable section

namespace Cert.KernelIdeal.Accum

open Idealize.ShloMosaic Idealize.ShloMosaic.TcCoe Idealize.SL.Sem Idealize.ShloMosaic.ValueIdx
open Cert.KernelIdeal Cert.KernelIdeal.Gen Cert.MaskedCE Cert.KernelIdeal.PayloadValue

variable (m : (ℓ : Loc nD τ sig) → Buf (Elt Ideal) ℓ)

/-- The block of logits and the block of labels at point `n`, as plain arrays. -/
abbrev xblk (c : Dev nD) (t : Fin cfg0.N) : Vec Ideal S32x32000 .f32 := iblk m c 0 t
abbrev tblk (c : Dev nD) (t : Fin cfg0.N) : Vec Ideal S32x1 .i32 := iblk m c 1 t

/-- Point `n`'s addend to the numerator: the block's sum of the kept rows' losses (zero past the grid). -/
def addN (c : Dev nD) (n : Nat) : EReal :=
  if h : n < cfg0.N then ∑ r : Fin 32, term (blkRow (xblk m c ⟨n, h⟩) r) (tblk m c ⟨n, h⟩ (ix2 r (0 : Fin 1))) else 0

/-- Point `n`'s addend to the denominator: the block's number of kept rows (zero past the grid). -/
def addD (c : Dev nD) (n : Nat) : EReal :=
  if h : n < cfg0.N then ∑ r : Fin 32, keep (tblk m c ⟨n, h⟩ (ix2 r (0 : Fin 1))) else 0

/-- The first total after point `n`, and the second. -/
abbrev tot0 (c : Dev nD) (n : Nat) (h : n < cfg0.N) : S8x128.Idx → EReal := (outsAt0 (F := Ideal) m c n h).2.2.1
abbrev tot1 (c : Dev nD) (n : Nat) (h : n < cfg0.N) : S8x128.Idx → EReal := (outsAt0 (F := Ideal) m c n h).2.2.2

theorem hN : cfg0.N = 256 := N_0

/-- At the first point of a run the first total is reset, then gains the point's addend. -/
theorem tot0_reset (c : Dev nD) (n : Nat) (h : n < cfg0.N) (h0 : n % 128 = 0) (j : S8x128.Idx) :
    tot0 m c n h j = 0 + addN m c n := by
  have h1 : ¬(⟨n, h⟩ : Fin cfg0.N).val % 128 = 127 := by dsimp only; omega
  show (outsAt0 (F := Ideal) m c (⟨n, h⟩ : Fin cfg0.N).val (⟨n, h⟩ : Fin cfg0.N).isLt).2.2.1 j = _
  rw [outsAt0_A m c ⟨n, h⟩ h0 h1]
  dsimp only
  rw [Pieces.sA0, pay1_eq, pay10_apply, pay5_apply, addN, dif_pos h]

/-- At any other point the first total gains the point's addend over what the point before left. -/
theorem tot0_step (c : Dev nD) (n : Nat) (h : n + 1 < cfg0.N) (hne : ¬(n + 1) % 128 = 0) (j : S8x128.Idx) :
    tot0 m c (n + 1) h j = tot0 m c n (Nat.lt_of_succ_lt h) j + addN m c (n + 1) := by
  show (outsAt0 (F := Ideal) m c (⟨n + 1, h⟩ : Fin cfg0.N).val (⟨n + 1, h⟩ : Fin cfg0.N).isLt).2.2.1 j = _
  by_cases h1 : (n + 1) % 128 = 127
  · rw [outsAt0_C m c ⟨n + 1, h⟩ hne h1]
    dsimp only
    rw [Pieces.sC0, pay1_eq, pay10_apply, addN, dif_pos h]
    rfl
  · rw [outsAt0_B m c ⟨n + 1, h⟩ hne h1]
    dsimp only
    rw [Pieces.sB0, pay1_eq, pay10_apply, addN, dif_pos h]
    rfl

/-- At the first point of a run the second total is reset, then gains the point's count. -/
theorem tot1_reset (c : Dev nD) (n : Nat) (h : n < cfg0.N) (h0 : n % 128 = 0) (j : S8x128.Idx) :
    tot1 m c n h j = 0 + addD m c n := by
  have h1 : ¬(⟨n, h⟩ : Fin cfg0.N).val % 128 = 127 := by dsimp only; omega
  show (outsAt0 (F := Ideal) m c (⟨n, h⟩ : Fin cfg0.N).val (⟨n, h⟩ : Fin cfg0.N).isLt).2.2.2 j = _
  rw [outsAt0_A m c ⟨n, h⟩ h0 h1]
  dsimp only
  rw [Pieces.sA1, pay2_pay9_apply, pay6_apply, addD, dif_pos h]

/-- At any other point the second total gains the point's count over what the point before left. -/
theorem tot1_step (c : Dev nD) (n : Nat) (h : n + 1 < cfg0.N) (hne : ¬(n + 1) % 128 = 0) (j : S8x128.Idx) :
    tot1 m c (n + 1) h j = tot1 m c n (Nat.lt_of_succ_lt h) j + addD m c (n + 1) := by
  show (outsAt0 (F := Ideal) m c (⟨n + 1, h⟩ : Fin cfg0.N).val (⟨n + 1, h⟩ : Fin cfg0.N).isLt).2.2.2 j = _
  by_cases h1 : (n + 1) % 128 = 127
  · rw [outsAt0_C m c ⟨n + 1, h⟩ hne h1]
    dsimp only
    rw [Pieces.sC1, pay2_pay9_apply, addD, dif_pos h]
    rfl
  · rw [outsAt0_B m c ⟨n + 1, h⟩ hne h1]
    dsimp only
    rw [Pieces.sB1, pay2_pay9_apply, addD, dif_pos h]
    rfl

/-- A total that is reset to `0 + M n` at the points `n ≡ 0 (mod 128)` and gains `M n` at every other point is,
    after point `t`, zero plus the sum of `M` over the points of `t`'s run up to `t`. -/
theorem closed_of_steps (f : (n : Nat) → n < cfg0.N → S8x128.Idx → EReal) (M : Nat → EReal)
    (h0 : ∀ (n : Nat) (h : n < cfg0.N), n % 128 = 0 → ∀ j, f n h j = 0 + M n)
    (hs : ∀ (n : Nat) (h : n + 1 < cfg0.N), ¬(n + 1) % 128 = 0 → ∀ j, f (n + 1) h j = f n (Nat.lt_of_succ_lt h) j + M (n + 1))
    (t : Nat) (ht : t < cfg0.N) (j : S8x128.Idx) :
    f t ht j = 0 + ∑ s ∈ Finset.range (t % 128 + 1), M (128 * (t / 128) + s) := by
  have h' : 128 * (t / 128) + t % 128 < cfg0.N := by rw [Nat.div_add_mod]; exact ht
  have e := Pipeline.eq_accAt_of_mod f 128 (fun n _ => fun _ => 0 + M n) (fun n _ acc => fun i => acc i + M n)
    (fun n h hn => funext (h0 n h hn)) (fun n h hn => funext (hs n h hn)) (by decide) t ht h'
  rw [e]
  exact Pipeline.accAt_add_apply (fun n _ => fun _ => 0 + M n) (fun n _ acc => fun i => acc i + M n) (fun _ => 0) (fun n _ => M n)
    (128 * (t / 128)) 127 (fun _ _ => rfl) (fun _ _ _ _ _ _ => rfl) (t % 128) (by omega) h' j

/-- The first total after point `t`. -/
theorem tot0_closed (c : Dev nD) (t : Nat) (ht : t < cfg0.N) (j : S8x128.Idx) :
    tot0 m c t ht j = 0 + ∑ s ∈ Finset.range (t % 128 + 1), addN m c (128 * (t / 128) + s) :=
  closed_of_steps (fun n h => tot0 m c n h) (addN m c) (tot0_reset m c) (tot0_step m c) t ht j

/-- The second total after point `t`. -/
theorem tot1_closed (c : Dev nD) (t : Nat) (ht : t < cfg0.N) (j : S8x128.Idx) :
    tot1 m c t ht j = 0 + ∑ s ∈ Finset.range (t % 128 + 1), addD m c (128 * (t / 128) + s) :=
  closed_of_steps (fun n h => tot1 m c n h) (addD m c) (tot1_reset m c) (tot1_step m c) t ht j

/-- At the last point of a run the first output block is the first total, a unit axis in front. -/
theorem out2_last (c : Dev nD) (t : Fin cfg0.N) (h1 : t.val % 128 = 127) (a : Fin 8) (b : Fin 128) :
    (outsAt0 (F := Ideal) m c t.val t.isLt).1 (ix3 (0 : Fin 1) a b) = tot0 m c t.val t.isLt (ix2 a b) := by
  have h0 : ¬t.val % 128 = 0 := by omega
  show _ = (outsAt0 (F := Ideal) m c t.val t.isLt).2.2.1 (ix2 a b)
  rw [outsAt0_C m c t h0 h1]
  dsimp only
  rw [Pieces.oC2, Pieces.sC0, pay3_apply]

/-- At the last point of a run the second output block is the second total, a unit axis in front. -/
theorem out3_last (c : Dev nD) (t : Fin cfg0.N) (h1 : t.val % 128 = 127) (a : Fin 8) (b : Fin 128) :
    (outsAt0 (F := Ideal) m c t.val t.isLt).2.1 (ix3 (0 : Fin 1) a b) = tot1 m c t.val t.isLt (ix2 a b) := by
  have h0 : ¬t.val % 128 = 0 := by omega
  show _ = (outsAt0 (F := Ideal) m c t.val t.isLt).2.2.2 (ix2 a b)
  rw [outsAt0_C m c t h0 h1]
  dsimp only
  rw [Pieces.oC3, Pieces.sC1, pay4_apply]

end Cert.KernelIdeal.Accum

end
-- ==== Proof.Final.lean ====
/-
  The two output arrays after the region.

  Each output array has shape [2, 8, 128]; its block `c'` is written back once, after the last point of run `c'`
  (point `128 · c' + 127`), and holds the run's total in every element. The two blocks tile the array, so the array
  ends holding, at `(c', a, b)`, zero plus the sum of the addends of the 128 points of run `c'`.
-/
import proofs.«408799_j59631325938458_2_alg».proof.Proof.Accum
import Idealize.ShloMosaic.Lib.Pipeline.Value

noncomputable section

namespace Cert.KernelIdeal.Final

open Idealize.ShloMosaic Idealize.ShloMosaic.TcCoe Idealize.SL.Sem Idealize.ShloMosaic.ValueIdx
open Cert.KernelIdeal Cert.KernelIdeal.Gen Cert.MaskedCE Cert.KernelIdeal.Accum

variable (m : (ℓ : Loc nD τ sig) → Buf (Elt Ideal) ℓ)

/-- The output windows' block index at point `t`: the run's number on the first axis, zero on the others. -/
theorem idx_out : ∀ t : Fin cfg0.N, win0_2.index t 0 = t.val / 128 ∧ win0_2.index t 1 = 0 ∧ win0_2.index t 2 = 0
    ∧ win0_3.index t 0 = t.val / 128 ∧ win0_3.index t 1 = 0 ∧ win0_3.index t 2 = 0 :=
  (by decide +kernel : ∀ t : Fin grid0.N, win0_2.index t 0 = t.val / 128 ∧ win0_2.index t 1 = 0 ∧ win0_2.index t 2 = 0
    ∧ win0_3.index t 0 = t.val / 128 ∧ win0_3.index t 1 = 0 ∧ win0_3.index t 2 = 0)

/-- What the first output array ends holding: in every element of half `c'`, zero plus the run's sum of addends. -/
def G2 (c : Dev nD) : S2x8x128.Idx → EReal :=
  fun i => 0 + ∑ s ∈ Finset.range 128, addN m c (128 * (i 0).val + s)

/-- The last point of a run writes back its block of that array. -/
theorem flushed2_eq (c : Dev nD) (t : Fin cfg0.N) (hf : (cfg0.win 2).flush t = true) :
    (dats m 0 c).flushed 2 t = ((cfg0.win 2).blk t).view.read (Elt Ideal) (G2 m c) := by
  have h1 : t.val % 128 = 127 := (flush0_2 t).mp hf
  show (cfg0.win 2).cut (grid0.coords t) ((dats m 0 c).after 2 t) = _
  rw [after0_2]
  have key : ∀ y : S1x8x128.Idx, (outsAt0 (F := Ideal) m c t.val t.isLt).1 y = G2 m c (((cfg0.win 2).blk t).view.emb y) := by
    intro y
    obtain ⟨p, a, b, rfl⟩ : ∃ (p : Fin 1) (a : Fin 8) (b : Fin 128), y = ix3 p a b := ⟨y 0, y 1, y 2, eq_ix3 y⟩
    obtain rfl : p = 0 := Subsingleton.elim _ _
    rw [Accum.out2_last m c t h1 a b, Accum.tot0_closed]
    have e0 : (((cfg0.win 2).blk t).view.emb (ix3 (0 : Fin 1) a b) 0).val = win0_2.index t 0 * 1 + 1 * 0 := rfl
    unfold G2
    rw [e0, (idx_out t).1, h1]
    have e1 : 128 * (t.val / 128 * 1 + 1 * 0) = 128 * (t.val / 128) := by omega
    simp only [e1]
  funext y
  exact key y

/-- Every element of the array lies in the block some run's last point writes back. -/
theorem cover2 (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 256 := N_0
  have ht0 : 128 * (i 0).val + 127 < cfg0.N := by omega
  refine ⟨⟨128 * (i 0).val + 127, ht0⟩, (flush0_2 _).mpr (by dsimp only; omega), ?_⟩
  show i ∈ ((View.whole main_v2_0).slice (win0_2.rect ⟨128 * (i 0).val + 127, ht0⟩)).set
  rw [View.set_slice_whole, Rect.mem_set_unit]
  obtain ⟨f0, f1, f2, g0, g1, g2⟩ := idx_out ⟨128 * (i 0).val + 127, ht0⟩
  intro a
  match a with
  | ⟨0, _⟩ =>
    show win0_2.index ⟨128 * (i 0).val + 127, ht0⟩ 0 * 1 ≤ (i 0).val ∧ (i 0).val < win0_2.index ⟨128 * (i 0).val + 127, ht0⟩ 0 * 1 + 1
    rw [f0]; dsimp only; omega
  | ⟨1, _⟩ =>
    show win0_2.index ⟨128 * (i 0).val + 127, ht0⟩ 1 * 8 ≤ (i 1).val ∧ (i 1).val < win0_2.index ⟨128 * (i 0).val + 127, ht0⟩ 1 * 8 + 8
    rw [f1]; omega
  | ⟨2, _⟩ =>
    show win0_2.index ⟨128 * (i 0).val + 127, ht0⟩ 2 * 128 ≤ (i 2).val ∧ (i 2).val < win0_2.index ⟨128 * (i 0).val + 127, ht0⟩ 2 * 128 + 128
    rw [f2]; omega

/-- So the array ends holding the runs' totals. -/
theorem final2 (c : Dev nD) : (dats m 0 c).arrAt 2 cfg0.N = G2 m c :=
  (dats m 0 c).arrAt_eq_of_cover 2 (G2 m c) (flushed2_eq m c) cover2

/-- What the second output array ends holding: in every element of half `c'`, zero plus the run's sum of addends. -/
def G3 (c : Dev nD) : S2x8x128.Idx → EReal :=
  fun i => 0 + ∑ s ∈ Finset.range 128, addD m c (128 * (i 0).val + s)

/-- The last point of a run writes back its block of that array. -/
theorem flushed3_eq (c : Dev nD) (t : Fin cfg0.N) (hf : (cfg0.win 3).flush t = true) :
    (dats m 0 c).flushed 3 t = ((cfg0.win 3).blk t).view.read (Elt Ideal) (G3 m c) := by
  have h1 : t.val % 128 = 127 := (flush0_3 t).mp hf
  show (cfg0.win 3).cut (grid0.coords t) ((dats m 0 c).after 3 t) = _
  rw [after0_3]
  have key : ∀ y : S1x8x128.Idx, (outsAt0 (F := Ideal) m c t.val t.isLt).2.1 y = G3 m c (((cfg0.win 3).blk t).view.emb y) := by
    intro y
    obtain ⟨p, a, b, rfl⟩ : ∃ (p : Fin 1) (a : Fin 8) (b : Fin 128), y = ix3 p a b := ⟨y 0, y 1, y 2, eq_ix3 y⟩
    obtain rfl : p = 0 := Subsingleton.elim _ _
    rw [Accum.out3_last m c t h1 a b, Accum.tot1_closed]
    have e0 : (((cfg0.win 3).blk t).view.emb (ix3 (0 : Fin 1) a b) 0).val = win0_3.index t 0 * 1 + 1 * 0 := rfl
    unfold G3
    rw [e0, (idx_out t).2.2.2.1, h1]
    have e1 : 128 * (t.val / 128 * 1 + 1 * 0) = 128 * (t.val / 128) := by omega
    simp only [e1]
  funext y
  exact key y

/-- Every element of the array lies in the block some run's last point writes back. -/
theorem cover3 (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 256 := N_0
  have ht0 : 128 * (i 0).val + 127 < cfg0.N := by omega
  refine ⟨⟨128 * (i 0).val + 127, ht0⟩, (flush0_3 _).mpr (by dsimp only; omega), ?_⟩
  show i ∈ ((View.whole main_v2_1).slice (win0_3.rect ⟨128 * (i 0).val + 127, ht0⟩)).set
  rw [View.set_slice_whole, Rect.mem_set_unit]
  obtain ⟨f0, f1, f2, g0, g1, g2⟩ := idx_out ⟨128 * (i 0).val + 127, ht0⟩
  intro a
  match a with
  | ⟨0, _⟩ =>
    show win0_3.index ⟨128 * (i 0).val + 127, ht0⟩ 0 * 1 ≤ (i 0).val ∧ (i 0).val < win0_3.index ⟨128 * (i 0).val + 127, ht0⟩ 0 * 1 + 1
    rw [g0]; dsimp only; omega
  | ⟨1, _⟩ =>
    show win0_3.index ⟨128 * (i 0).val + 127, ht0⟩ 1 * 8 ≤ (i 1).val ∧ (i 1).val < win0_3.index ⟨128 * (i 0).val + 127, ht0⟩ 1 * 8 + 8
    rw [g1]; omega
  | ⟨2, _⟩ =>
    show win0_3.index ⟨128 * (i 0).val + 127, ht0⟩ 2 * 128 ≤ (i 2).val ∧ (i 2).val < win0_3.index ⟨128 * (i 0).val + 127, ht0⟩ 2 * 128 + 128
    rw [g2]; omega

/-- So the array ends holding the runs' totals. -/
theorem final3 (c : Dev nD) : (dats m 0 c).arrAt 3 cfg0.N = G3 m c :=
  (dats m 0 c).arrAt_eq_of_cover 3 (G3 m c) (flushed3_eq m c) cover3

end Cert.KernelIdeal.Final

end
-- ==== Proof.Blocks.lean ====
/-
  The input blocks at a grid point, read off the arguments.

  The logits are re-laid as [8192, 32000] and the labels as [8192, 1] before the call (row-major reshapes), and point
  `t` of the 2 × 128 grid stages block `t` of each: its 32 rows are the flat rows `32 · t + r`. So element `(r, k)`
  of the logits' block is the logit of token `(R / 2048, R % 2048)`, `R = 32 · t + r`, at column `k`, and element
  `(r, 0)` of the labels' block is that token's label.
-/
import proofs.«408799_j59631325938458_2_alg».proof.Proof.Gen.KernelIdeal.Frame
import proofs.«408799_j59631325938458_2_alg».proof.Proof.Result
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.MaskedCE

variable {F : FTy → Type} [FloatOps F]
variable (m : (ℓ : Loc nD τ sig) → Buf (Elt F) ℓ)

/-- Both input windows' block index at point `t` is `t` itself on the row axis and `0` on the other. -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The re-laid logits the region finds. -/
theorem V_v0 (c : Dev nD) : (V m c main_v0 : S8192x32000.Idx → Elt F .f32)
    = shapeCast S8192x32000 (m ((c : Thread nD τ).loc main_arg0)) shapeCasts_S4x2048x32000_S8192x32000 := by
  show StableHlo.after hostOps0 (fun b => m (c, b)) (Proc.devRef .tc main_v0) = _
  after_results
  rfl

/-- The re-laid labels the region finds. -/
theorem V_v1 (c : Dev nD) : (V m c main_v1 : S8192x1.Idx → Elt F .i32)
    = shapeCast S8192x1 (m ((c : Thread nD τ).loc main_arg1)) shapeCasts_S4x2048_S8192x1 := by
  show StableHlo.after hostOps0 (fun b => m (c, b)) (Proc.devRef .tc main_v1) = _
  after_results
  rfl

/-- Element `(r, k)` of the logits' block at point `t`. -/
theorem xblk_apply (c : Dev nD) (t : Fin cfg0.N) (r : Fin 32) (k : Fin 32000) :
    (iblk m c 0 t : Vec F S32x32000 .f32) (ix2 r k)
      = m ((c : Thread nD τ).loc main_arg0) (ix3 (tokA (32 * t.val + r.val)) (tokB (32 * t.val + r.val)) k) := by
  have hN : t.val < 256 := lt_of_lt_of_eq t.isLt (show cfg0.N = 256 from N_0)
  unfold iblk
  rw [View.read_apply]
  show V m c main_v0 _ = _
  rw [V_v0]
  refine shapeCast_apply _ _ _ _ ?_
  show (S4x2048x32000.rowMajor (ix3 (tokA (32 * t.val + r.val)) (tokB (32 * t.val + r.val)) k)).val
    = (S8192x32000.rowMajor (((cfg0.win 0).blk t).view.emb (ix2 r k))).val
  rw [Shape.rowMajor_val_three, Shape.rowMajor_val_two]
  have hi := idx_in t
  have e0 : (((cfg0.win 0).blk t).view.emb (ix2 r k) 0).val = win0_0.index t 0 * 32 + 1 * r.val := rfl
  have e1 : (((cfg0.win 0).blk t).view.emb (ix2 r k) 1).val = win0_0.index t 1 * 32000 + 1 * k.val := rfl
  rw [e0, e1, hi.1, hi.2.1]
  show ((tokA (32 * t.val + r.val)).val * 2048 + (tokB (32 * t.val + r.val)).val) * 32000 + k.val
    = (t.val * 32 + 1 * r.val) * 32000 + (0 * 32000 + 1 * k.val)
  have hr := r.isLt
  simp only [tokA, tokB]
  omega

/-- Element `(r, 0)` of the labels' block at point `t`. -/
theorem tblk_apply (c : Dev nD) (t : Fin cfg0.N) (r : Fin 32) :
    (iblk m c 1 t : Vec F S32x1 .i32) (ix2 r (0 : Fin 1))
      = m ((c : Thread nD τ).loc main_arg1) (ix2 (tokA (32 * t.val + r.val)) (tokB (32 * t.val + r.val))) := by
  have hN : t.val < 256 := lt_of_lt_of_eq t.isLt (show cfg0.N = 256 from N_0)
  unfold iblk
  rw [View.read_apply]
  show V m c main_v1 _ = _
  rw [V_v1]
  refine shapeCast_apply _ _ _ _ ?_
  show (S4x2048.rowMajor (ix2 (tokA (32 * t.val + r.val)) (tokB (32 * t.val + r.val)))).val
    = (S8192x1.rowMajor (((cfg0.win 1).blk t).view.emb (ix2 r (0 : Fin 1)))).val
  rw [Shape.rowMajor_val_two, Shape.rowMajor_val_two]
  have hi := idx_in t
  have e0 : (((cfg0.win 1).blk t).view.emb (ix2 r (0 : Fin 1)) 0).val = win0_1.index t 0 * 32 + 1 * r.val := rfl
  have e1 : (((cfg0.win 1).blk t).view.emb (ix2 r (0 : Fin 1)) 1).val = win0_1.index t 1 * 1 + 1 * 0 := rfl
  rw [e0, e1, hi.2.2.1, hi.2.2.2]
  show (tokA (32 * t.val + r.val)).val * 2048 + (tokB (32 * t.val + r.val)).val
    = (t.val * 32 + 1 * r.val) * 1 + (0 * 1 + 1 * 0)
  have hr := r.isLt
  simp only [tokA, tokB]
  omega

end Cert.KernelIdeal.Blocks

end
-- ==== Proof.Tail.lean ====
/-
  The host operations after the call: from the two [2, 8, 128] output arrays to the loss.

  After the region the program takes element (c, 0, 0) of each output array for the two values of `c`, sums the two
  (a host sum: zero plus the two elements), divides the first sum by the second and the quotient by the scale. Given
  what the two arrays hold after the region, the result buffer holds that term.
-/
import proofs.«408799_j59631325938458_2_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.Tail

open Idealize.ShloMosaic Idealize.ShloMosaic.TcCoe Idealize.SL.Sem Idealize.ShloMosaic.ValueIdx
open Cert.KernelIdeal Cert.KernelIdeal.Gen

/-! ## Sums over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The host operations on one output array, over any contents -/

/-- The slice [0:2, 0:1, 0:1] re-laid as a vector of 2: its element `k` is the array's element `(k, 0, 0)`. -/
theorem slab_apply (A : S2x8x128.Idx → EReal) (hs : S2x8x128.Slices ![0, 0, 0] S2x1x1) (hc : S2x1x1.ShapeCasts S2)
    (k : Fin 2) :
    shapeCast S2 (extractStridedSlice S2x1x1 ![0, 0, 0] A hs) hc (ix1 k) = A (ix3 k (0 : Fin 8) (0 : Fin 128)) := by
  refine (shapeCast_apply _ hc (ix1 k) (ix3 k (0 : Fin 1) (0 : Fin 1)) ?_).trans ?_
  · rw [Shape.rowMajor_val_three, Shape.rowMajor_val_one]
    show (k.val * 1 + 0) * 1 + 0 = k.val
    omega
  · refine extractStridedSlice_apply _ A hs _ _ (fun a => ?_)
    match a with
    | ⟨0, _⟩ => show k.val = 0 + k.val; omega
    | ⟨1, _⟩ => rfl
    | ⟨2, _⟩ => rfl

/-- The host's sum of a vector of 2 from the zero word: zero plus the two elements. -/
theorem host_sum2 (x : S2.Idx → EReal) (h' : S2.ReducesTo [0] S_) (hu : 0 < S_.numel) (j : S_.Idx) :
    Host.reduceAdd (F := Ideal) (φ := .f32) x (constant S_ .f32 0x00000000#32) h' hu j
      = 0 + (x (ix1 (0 : Fin 2)) + x (ix1 (1 : Fin 2))) := by
  rw [hostReduceAdd_apply, Ideal.hostReduceAdd_total h' (fun b => b.elim0) x _ j, constant_apply,
    Ideal.ofBits_zero_f32, sum_idx1, Fin.sum_univ_two]

/-- One output array's part of the tail: slice, re-lay, sum from zero. -/
def total (A : S2x8x128.Idx → EReal) : S_.Idx → EReal :=
  Host.reduceAdd (F := Ideal) (φ := .f32)
    (shapeCast S2 (extractStridedSlice S2x1x1 ![0, 0, 0] A slices_S2x8x128_S2x1x1_0_0_0) shapeCasts_S2x1x1_S2)
    (constant S_ .f32 0x00000000#32) reducesTo_S2_S_d0 h_S_

/-- It is zero plus the elements `(0, 0, 0)` and `(1, 0, 0)`. -/
theorem total_apply (A : S2x8x128.Idx → EReal) (j : S_.Idx) :
    total A j = 0 + (A (ix3 (0 : Fin 2) (0 : Fin 8) (0 : Fin 128)) + A (ix3 (1 : Fin 2) (0 : Fin 8) (0 : Fin 128))) := by
  unfold total
  rw [host_sum2, slab_apply, slab_apply]

variable (m : (ℓ : Loc nD τ sig) → Buf (Elt Ideal) ℓ)

/-- The result buffer after the host tail, from the output arrays' final contents `A2`, `A3`. -/
theorem tail_value (c : Dev nD) (A2 A3 : S2x8x128.Idx → EReal)
    (h2 : (dats m 0 c).arrAt 2 cfg0.N = A2) (h3 : (dats m 0 c).arrAt 3 cfg0.N = A3) :
    Pipeline.afterTail₀ cfgs (dats m) 0 (V0 m) [hostOps1] c main_v10
      = fun j => Ideal.div
          (Ideal.div (0 + (A2 (ix3 (0 : Fin 2) (0 : Fin 8) (0 : Fin 128)) + A2 (ix3 (1 : Fin 2) (0 : Fin 8) (0 : Fin 128))))
                     (0 + (A3 (ix3 (0 : Fin 2) (0 : Fin 8) (0 : Fin 128)) + A3 (ix3 (1 : Fin 2) (0 : Fin 8) (0 : Fin 128)))))
          (m ((c : Thread nD τ).loc main_arg2) j) := by
  -- the two output arrays are windows 2 and 3 of the pipeline; the scale is no window's array and no host
  -- operation before the region writes it
  have e2 : Pipeline.withArrays (cfgs 0).spec c (V0 m c) (fun w => (dats m 0 c).arrAt w (cfgs 0).N)
      (Proc.devRef .tc main_v2_0) = A2 :=
    (Pipeline.withArrays_arr spec0 launch0.win.arr_inj c (V0 m c) (fun w => (dats m 0 c).arrAt w cfg0.N) 2).trans h2
  have e3 : Pipeline.withArrays (cfgs 0).spec c (V0 m c) (fun w => (dats m 0 c).arrAt w (cfgs 0).N)
      (Proc.devRef .tc main_v2_1) = A3 :=
    (Pipeline.withArrays_arr spec0 launch0.win.arr_inj c (V0 m c) (fun w => (dats m 0 c).arrAt w cfg0.N) 3).trans h3
  have ew : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  unfold Pipeline.afterTail₀
  show StableHlo.after hostOps1 _ (Proc.devRef .tc main_v10) = _
  after_results
  rw [e2, e3, ew]
  funext j
  show Ideal.div (Ideal.div (total A2 j) (total A3 j)) (m ((c : Thread nD τ).loc main_arg2) j) = _
  rw [total_apply, total_apply]

end Cert.KernelIdeal.Tail

end
-- ==== Proof.Regroup.lean ====
/-
  The sum over the 8192 tokens, regrouped the way the kernel walks them.

  The kernel walks the rows in two halves (one per value of the outer grid coordinate), each half in 128 steps of a
  block of 32 rows: step `s` of half `c` holds the flat rows `32 · (128 · c + s) + r`, `r < 32`. Every flat row
  below 8192 is met exactly once, and flat row `R` is token `(R / 2048, R % 2048)`. Addition of extended reals is
  commutative and associative, so the regrouped sum is the sum over the tokens.

  Both sides are brought to the sum over the flat row numbers below 8192. The one tool is `sum_grid`: the cells
  `(q, r)` of an `m` by `n` grid, numbered `n · q + r`, are the numbers below `m · n`. It is used once for the
  tokens (4 by 2048) and twice for the kernel's walk (256 blocks of 32 rows, then 2 halves of 128 blocks).
-/
import proofs.«408799_j59631325938458_2_alg».proof.Proof.Result
import Mathlib.Algebra.BigOperators.Fin
import Mathlib.Logic.Equiv.Fin.Basic

noncomputable section

namespace Cert.MaskedCE

open Idealize.ShloMosaic Idealize.ShloMosaic.ValueIdx

/-- Rows and columns of an `m` by `n` grid enumerate the numbers below `m * n`: number `R` sits in row `R / n`,
    column `R % n`, so the double sum over the grid of a function of `n * q + r` is its sum over the numbers. -/
theorem sum_grid {M : Type*} [AddCommMonoid M] (m n : Nat) (g : Nat → M) :
    ∑ q : Fin m, ∑ r : Fin n, g (n * q.val + r.val) = ∑ R ∈ Finset.range (m * n), g R := by
  rw [Finset.sum_range, ← Equiv.sum_comp finProdFinEquiv (fun R : Fin (m * n) => g R.val), Fintype.sum_prod_type]
  refine Finset.sum_congr rfl fun q _ => Finset.sum_congr rfl fun r _ => ?_
  rw [finProdFinEquiv_apply_val, Nat.add_comm]

/-- Flat row `2048 * a + b` with `a < 4`, `b < 2048` is token `(a, b)`. -/
theorem tok_flat (a : Fin 4) (b : Fin 2048) : tok (2048 * a.val + b.val) = ix2 a b := by
  have ha := a.isLt
  have hb := b.isLt
  have h1 : tokA (2048 * a.val + b.val) = a :=
    Fin.ext (by show (2048 * a.val + b.val) / 2048 % 4 = a.val; omega)
  have h2 : tokB (2048 * a.val + b.val) = b :=
    Fin.ext (by show (2048 * a.val + b.val) % 2048 = b.val; omega)
  rw [tok, h1, h2]

/-- Halves, steps and rows of a block enumerate the tokens. -/
theorem sum_blocks_eq_sum_tokens (f : (⟨2, ![4, 2048]⟩ : Shape).Idx → EReal) :
    ∑ c : Fin 2, ∑ s ∈ Finset.range 128, ∑ r : Fin 32, f (tok (32 * (128 * c.val + s) + r.val))
      = ∑ i : (⟨2, ![4, 2048]⟩ : Shape).Idx, f i := by
  -- the right side, by coordinates, is the sum over the flat rows below 4 * 2048
  have hR : ∑ i : (⟨2, ![4, 2048]⟩ : Shape).Idx, f i = ∑ R ∈ Finset.range (4 * 2048), f (tok R) := by
    rw [sum_idx2, ← sum_grid 4 2048 (fun R => f (tok R))]
    refine Finset.sum_congr rfl fun a _ => Finset.sum_congr rfl fun b _ => ?_
    rw [tok_flat]
  -- the left side: the rows of a block number `q` are the flat rows `32 * q + r`, and the steps of a half `c`
  -- are the block numbers `128 * c + s`; so it is the sum over the flat rows below 2 * 128 * 32
  have hL : ∑ c : Fin 2, ∑ s ∈ Finset.range 128, ∑ r : Fin 32, f (tok (32 * (128 * c.val + s) + r.val))
      = ∑ R ∈ Finset.range (2 * 128 * 32), f (tok R) := by
    rw [← sum_grid (2 * 128) 32 (fun R => f (tok R)),
      ← Finset.sum_range (fun q => ∑ r : Fin 32, f (tok (32 * q + r.val))),
      ← sum_grid 2 128 (fun q => ∑ r : Fin 32, f (tok (32 * q + r.val)))]
    refine Finset.sum_congr rfl fun c _ => ?_
    rw [Finset.sum_range]
  -- both counts of flat rows are 8192
  rw [hL, hR]

end Cert.MaskedCE

end
-- ==== Proof.KernelValue.lean ====
/-
  The idealized kernel's run, read: the result buffer ends at the closed form `loss` of the arguments.

  After the region the two output arrays hold the runs' totals; the host tail adds the two runs' totals, divides and
  divides by the scale. A point's addend is the sum over its block's 32 rows, and row `r` of block `n` is the token
  with flat row number `32 · n + r`; so the totals, added over the two runs of 128 points, are the sums over all
  8192 tokens, in another grouping.
-/
import proofs.«408799_j59631325938458_2_alg».proof.Proof.Final
import proofs.«408799_j59631325938458_2_alg».proof.Proof.Blocks
import proofs.«408799_j59631325938458_2_alg».proof.Proof.Tail
import proofs.«408799_j59631325938458_2_alg».proof.Proof.Regroup

noncomputable section

namespace Cert.KernelIdeal.RunValue

open Idealize.ShloMosaic Idealize.ShloMosaic.TcCoe Idealize.SL.Sem Idealize.ShloMosaic.ValueIdx
open Cert.KernelIdeal Cert.KernelIdeal.Gen Cert.MaskedCE Cert.KernelIdeal.Accum Cert.KernelIdeal.Final Cert.KernelIdeal.PayloadValue

variable (m : (ℓ : Loc nD τ sig) → Buf (Elt Ideal) ℓ) (ρ : Dev nD → PrngReg)

/-- The logits and the labels as the program is launched with them. -/
abbrev X (c : Dev nD) : (⟨3, ![4, 2048, 32000]⟩ : Shape).Idx → EReal := m ((c : Thread nD τ).loc main_arg0)
abbrev T (c : Dev nD) : (⟨2, ![4, 2048]⟩ : Shape).Idx → BitVec 32 := m ((c : Thread nD τ).loc main_arg1)

/-- A point's addend to the numerator, over the tokens its block holds. -/
theorem addN_eq (c : Dev nD) (n : Nat) (h : n < cfg0.N) :
    addN m c n = ∑ r : Fin 32, term (rowOf (X m c) (tok (32 * n + r.val))) (T m c (tok (32 * n + r.val))) := by
  rw [addN, dif_pos h]
  refine Finset.sum_congr rfl fun r _ => ?_
  have e1 : blkRow (xblk m c ⟨n, h⟩) r = rowOf (X m c) (tok (32 * n + r.val)) := by
    funext k
    show (iblk m c 0 ⟨n, h⟩ : Vec Ideal S32x32000 .f32) (ix2 r k) = _
    rw [Blocks.xblk_apply]
    rfl
  have e2 : tblk m c ⟨n, h⟩ (ix2 r (0 : Fin 1)) = T m c (tok (32 * n + r.val)) := by
    show (iblk m c 1 ⟨n, h⟩ : Vec Ideal S32x1 .i32) (ix2 r (0 : Fin 1)) = _
    rw [Blocks.tblk_apply]
    rfl
  rw [e1, e2]

/-- A point's addend to the denominator, over the tokens its block holds. -/
theorem addD_eq (c : Dev nD) (n : Nat) (h : n < cfg0.N) :
    addD m c n = ∑ r : Fin 32, keep (T m c (tok (32 * n + r.val))) := by
  rw [addD, dif_pos h]
  refine Finset.sum_congr rfl fun r _ => ?_
  have e2 : tblk m c ⟨n, h⟩ (ix2 r (0 : Fin 1)) = T m c (tok (32 * n + r.val)) := by
    show (iblk m c 1 ⟨n, h⟩ : Vec Ideal S32x1 .i32) (ix2 r (0 : Fin 1)) = _
    rw [Blocks.tblk_apply]
    rfl
  rw [e2]

/-- The two runs' totals of the first array, added from zero, are the numerator. -/
theorem numer_eq (c : Dev nD) :
    (0 : EReal) + (G2 m c (ix3 (0 : Fin 2) (0 : Fin 8) (0 : Fin 128)) + G2 m c (ix3 (1 : Fin 2) (0 : Fin 8) (0 : Fin 128)))
      = numer (X m c) (T m c) := by
  have hN : cfg0.N = 256 := N_0
  have run : ∀ q : Fin 2, G2 m c (ix3 q (0 : Fin 8) (0 : Fin 128))
      = ∑ s ∈ Finset.range 128, ∑ r : Fin 32, term (rowOf (X m c) (tok (32 * (128 * q.val + s) + r.val))) (T m c (tok (32 * (128 * q.val + s) + r.val))) := by
    intro q
    show (0 : EReal) + ∑ s ∈ Finset.range 128, addN m c (128 * q.val + s) = _
    rw [zero_add]
    refine Finset.sum_congr rfl fun s hs => ?_
    have hs' := Finset.mem_range.mp hs
    have hq := q.isLt
    exact addN_eq m c _ (by omega)
  rw [zero_add, numer, ← sum_blocks_eq_sum_tokens (fun i => term (rowOf (X m c) i) (T m c i)), Fin.sum_univ_two, run 0, run 1]

/-- The two runs' totals of the second array, added from zero, are the denominator. -/
theorem denom_eq (c : Dev nD) :
    (0 : EReal) + (G3 m c (ix3 (0 : Fin 2) (0 : Fin 8) (0 : Fin 128)) + G3 m c (ix3 (1 : Fin 2) (0 : Fin 8) (0 : Fin 128)))
      = denom (T m c) := by
  have hN : cfg0.N = 256 := N_0
  have run : ∀ q : Fin 2, G3 m c (ix3 q (0 : Fin 8) (0 : Fin 128))
      = ∑ s ∈ Finset.range 128, ∑ r : Fin 32, keep (T m c (tok (32 * (128 * q.val + s) + r.val))) := by
    intro q
    show (0 : EReal) + ∑ s ∈ Finset.range 128, addD m c (128 * q.val + s) = _
    rw [zero_add]
    refine Finset.sum_congr rfl fun s hs => ?_
    have hs' := Finset.mem_range.mp hs
    have hq := q.isLt
    exact addD_eq m c _ (by omega)
  rw [zero_add, denom, ← sum_blocks_eq_sum_tokens (fun i => keep (T m c i)), Fin.sum_univ_two, run 0, run 1]

/-- The result buffer after the whole program. -/
theorem result_eq (c : Dev nD) :
    Pipeline.afterTail₀ cfgs (dats m) 0 (V0 m) [hostOps1] c main_v10
      = loss (X m c) (T m c) (m ((c : Thread nD τ).loc main_arg2)) := by
  rw [Tail.tail_value m c (G2 m c) (G3 m c) (final2 m c) (final3 m c)]
  funext j
  show Ideal.div (Ideal.div _ _) _ = Ideal.div (Ideal.div (numer (X m c) (T m c)) (denom (T m c))) _
  rw [numer_eq, denom_eq]

/-- Every weakly fair execution of the idealized kernel ends with the result at the closed form and the arguments
    unchanged. -/
theorem run : θ_run defs (onTc (τ := τ) (main (F := Ideal))) ⟨m, fun _ => 0, ρ⟩ fun r => ∀ c : Dev nD,
      r.2.mem ((c.tc : Thread nD τ).loc main_v10) = loss (X m c) (T m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference, read at its one result element: it is the closed form `loss`.

  The reference takes `log_softmax` of every row (the row's maximum folded from `-∞`, shifted logits, the log of the
  sum of their exponentials), gathers the labelled column with `take_along_axis` (a negative label gets 32000 added,
  then an index outside [0, 31999] is filled with the quiet-NaN pattern), negates, multiplies by the mask
  `label ≠ 0`, sums numerator and mask over all tokens, and divides twice. With every label in [0, 32000) the wrap
  and the fill do not fire and the gather reads the labelled logit, which is the compare-and-sum `pick`.
-/
import proofs.«408799_j59631325938458_2_alg».proof.Proof.RefRead
import proofs.«408799_j59631325938458_2_alg».proof.Proof.Result
import Idealize.ShloMosaic.Lib.ValueIdx
import Idealize.ShloMosaic.Lib.ValueLayout
import Idealize.ShloMosaic.Lib.IdealHost
import Idealize.ShloMosaic.Lib.ReduceAll
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Gen Cert.MaskedCE
open Idealize.ShloMosaic.StableHlo.Predicate

/-! ## The label word

A label `w` with `0 ≤ w < 32000` as a signed word is the same number unsigned, below `2 ^ 31`; so the signed
comparisons against `0` and `31999` are comparisons of naturals, and the clamp into `[0, 31999]` leaves it alone. -/

/-- A word whose signed value lies in `[0, 32000)` has that unsigned value. -/
theorem label_toNat (w : BitVec 32) (h : 0 ≤ w.toInt ∧ w.toInt < 32000) : w.toNat < 32000 ∧ w.toInt = (w.toNat : Int) := by
  have e := BitVec.toInt_eq_toNat_cond w
  have hw := w.isLt
  split at e <;> constructor <;> omega

/-- Such a label is not negative: the compare `w < 0` answers the zero bit. -/
theorem label_not_neg (w : BitVec 32) (h : 0 ≤ w.toInt ∧ w.toInt < 32000) : IntOp.cmpi .slt w 0#32 ≠ 1#1 := by
  have hw := (label_toNat w h).1
  intro e
  have := (slt_iff_toNat (a := w) (b := 0#32) (by omega) (by decide)).mp e
  simp at this

/-- The wrap of a negative label (`w + 32000` where `w < 0`) does not fire: the select returns the label. -/
theorem label_wrap (w : BitVec 32) (h : 0 ≤ w.toInt ∧ w.toInt < 32000) :
    Scalar.select (IntOp.cmpi .slt w 0#32) (IntOp.addi w 32000#32) w = w := by
  exact if_neg (label_not_neg w h)

/-- Both range tests of the gather's fill pass: `0 ≤ w` and `w ≤ 31999`, so their conjunction is the one bit. -/
theorem label_in_range (w : BitVec 32) (h : 0 ≤ w.toInt ∧ w.toInt < 32000) :
    IntOp.andi (IntOp.cmpi .sge w 0#32) (IntOp.cmpi .sle w 31999#32) = 1#1 := by
  have hw := (label_toNat w h).1
  have h1 : IntOp.cmpi .sge w 0#32 = 1#1 := (sge_iff_toNat (a := w) (b := 0#32) (by omega) (by decide)).mpr (by simp)
  have h2 : IntOp.cmpi .sle w 31999#32 = 1#1 :=
    (sle_iff_toNat (a := w) (b := 31999#32) (by omega) (by decide)).mpr (by
      show w.toNat ≤ 31999; omega)
  rw [h1, h2]; rfl

/-- The clamp of the start index into `[0, 31999]` leaves the label alone. -/
theorem label_clamp (w : BitVec 32) (h : 0 ≤ w.toInt ∧ w.toInt < 32000) : min w.toInt.toNat 31999 = w.toNat := by
  obtain ⟨hw, e⟩ := label_toNat w h
  rw [e, Int.toNat_natCast]; omega

/-! ## The mask -/

/-- The mask `label ≠ 0`, converted to a float, is `keep`: zero at the padding label and one elsewhere. -/
theorem mask_at (x1 : (⟨S4x2048, .i32⟩ : BufTy).Contents (Elt Ideal)) (i : S4x2048.Idx) :
    ReadP.val_main_v7 (F := Ideal) x1 i = keep (x1 i) := by
  rw [ReadP.val_main_v7_apply, ReadP.val_main_v6_apply, ReadP.val_main_v5_apply, ReadP.val_main_c_apply]
  unfold keep IntOp.cmpi
  by_cases h : x1 i = 0#32
  · rw [if_pos h, h]
    show (((BitVec.ofBool (0#32 != 0#32)).toNat : ℝ) : EReal) = 0
    simp
  · rw [if_neg h]
    have hb : (x1 i != 0#32) = true := by simpa using h
    show (((BitVec.ofBool (x1 i != 0#32)).toNat : ℝ) : EReal) = 1
    rw [hb]
    simp

/-! ## The row's maximum and the sum of exponentials -/

/-- The token index `(b, s)` with column `k` put back on the reduced axis. -/
theorem lift_tok (h : S4x2048x32000.Reduces [2] S4x2048) (b : Fin 4) (s : Fin 2048) (k : Fin (S4x2048x32000.size 2)) :
    h.lift (ix2 b s) k = ix3 b s (⟨k.val, k.isLt⟩ : Fin 32000) := by
  funext c; apply Fin.ext
  match c with
  | ⟨0, _⟩ => rfl
  | ⟨1, _⟩ => rfl
  | ⟨2, _⟩ => rfl

/-- The reduce by `maximum` over the columns from `-∞`, then the maximum with `-∞` once more, is the row's maximum. -/
theorem rowMax_at (x0 : (⟨S4x2048x32000, .f32⟩ : BufTy).Contents (Elt Ideal)) (b : Fin 4) (s : Fin 2048) :
    ReadP.val_main_call0_v2 (F := Ideal) x0 (ix2 b s) = rowMax (rowOf x0 (ix2 b s)) := by
  have e : ReadP.val_main_call0_v0 (F := Ideal) x0 (ix2 b s) = rowMax (rowOf x0 (ix2 b s)) := by
    have h : S4x2048x32000.Reduces [2] S4x2048 := by decide
    unfold ReadP.val_main_call0_v0
    rw [Host.reduce_eq_fold_single (α := Ideal .f32) (FloatOps.maximumf (F := Ideal) (φ := .f32)) x0 _
      reducesTo_S4x2048x32000_S4x2048_d2 h h_S_]
    have hf : (x0 ∘ h.lift (ix2 b s)) = rowOf x0 (ix2 b s) := funext fun k => congrArg x0 (lift_tok h b s k)
    rw [hf]
    rfl
  rw [ReadP.val_main_call0_v2_apply, ReadP.val_main_call0_v1_apply, ReadP.val_main_call0_cst_0_apply, e]
  exact max_init_rowMax _

/-- A logit minus its row's maximum. -/
theorem shifted_at (x0 : (⟨S4x2048x32000, .f32⟩ : BufTy).Contents (Elt Ideal)) (b : Fin 4) (s : Fin 2048) (k : Fin 32000) :
    ReadP.val_main_call0_v5 (F := Ideal) x0 (ix3 b s k) = x0 (ix3 b s k) - rowMax (rowOf x0 (ix2 b s)) := by
  have hi : ReadP.idx_main_call0_v3 (ReadP.idx_main_call0_v4 (ix3 b s k)) = ix2 b s := by
    funext a; match a with | ⟨0, _⟩ => rfl | ⟨1, _⟩ => rfl
  rw [ReadP.val_main_call0_v5_apply, ReadP.val_main_call0_v4_apply, ReadP.val_main_call0_v3_apply, hi, rowMax_at]
  rfl

/-- The softmax denominator of token `(b, s)`: the sum from zero of the exponentials of the shifted logits. -/
theorem sumExp_at (x0 : (⟨S4x2048x32000, .f32⟩ : BufTy).Contents (Elt Ideal)) (b : Fin 4) (s : Fin 2048) :
    ReadP.val_main_call0_v7 (F := Ideal) x0 (ix2 b s) = sumExp (rowOf x0 (ix2 b s)) := by
  rw [ReadP.val_main_call0_v7_apply, ReadP.val_main_call0_cst_1_apply, Ideal.ofBits_def, Ideal.ofBits_zero_f32, zero_add]
  unfold sumExp
  refine Finset.sum_congr rfl fun k _ => ?_
  have hi : ReadP.idx_main_call0_v7 (ix2 b s) k = ix3 b s k := by
    funext a; match a with | ⟨0, _⟩ => rfl | ⟨1, _⟩ => rfl | ⟨2, _⟩ => rfl
  rw [hi, ReadP.val_main_call0_v6_apply, shifted_at]
  rfl

/-- `log_softmax` at `(b, s, k)`: the shifted logit minus the log of the row's denominator. -/
theorem logSoftmax_at (x0 : (⟨S4x2048x32000, .f32⟩ : BufTy).Contents (Elt Ideal)) (b : Fin 4) (s : Fin 2048) (k : Fin 32000) :
    ReadP.val_main_v0 (F := Ideal) x0 (ix3 b s k)
      = (x0 (ix3 b s k) - rowMax (rowOf x0 (ix2 b s))) - Ideal.log (sumExp (rowOf x0 (ix2 b s))) := by
  have hi : ReadP.idx_main_call0_v8 (ReadP.idx_main_call0_v10 (ix3 b s k)) = ix2 b s := by
    funext a; match a with | ⟨0, _⟩ => rfl | ⟨1, _⟩ => rfl
  rw [ReadP.val_main_v0_apply, shifted_at, ReadP.val_main_call0_v10_apply, ReadP.val_main_call0_v9_apply,
    ReadP.val_main_call0_v8_apply, hi, sumExp_at, Ideal.subf_def, Ideal.hostUnary_log_def]

/-! ## The gathered column -/

/-- The start index of token `(b, s)` is its label: the wrap of negative labels does not fire. -/
theorem startIdx_at (x1 : (⟨S4x2048, .i32⟩ : BufTy).Contents (Elt Ideal)) (b : Fin 4) (s : Fin 2048)
    (h : 0 ≤ (x1 (ix2 b s)).toInt ∧ (x1 (ix2 b s)).toInt < 32000) :
    ReadP.val_main_call1_v5 (F := Ideal) x1 (ix4 b s (0 : Fin 1) (0 : Fin 1)) = x1 (ix2 b s) := by
  have hi : ReadP.idx_main_v1 (ReadP.idx_main_call1_v5 (ix4 b s (0 : Fin 1) (0 : Fin 1))) = ix2 b s := by
    have hb := b.isLt
    have hs := s.isLt
    funext a; apply Fin.ext
    match a with
    | ⟨0, _⟩ => show (((b.val * 2048 + s.val) * 1 + 0) * 1 + 0) / 2048 = b.val; omega
    | ⟨1, _⟩ => show (((b.val * 2048 + s.val) * 1 + 0) * 1 + 0) / 1 % 2048 = s.val; omega
  rw [ReadP.val_main_call1_v5_apply, ReadP.val_main_call1_v4_apply, ReadP.val_main_call1_v1_apply,
    ReadP.val_main_call1_v3_apply, ReadP.val_main_v1_apply, hi, ReadP.val_main_call1_v0_apply, ReadP.val_main_call1_c_apply,
    ReadP.val_main_call1_v2_apply, ReadP.val_main_call1_c_0_apply]
  exact label_wrap _ h

/-- The `[4, 2048, 1]` index `(b, s, 0)` with the one coordinate of the reduced size-one axis put back. -/
theorem lift_one (h : S4x2048x1x1.Reduces [3] S4x2048x1) (b : Fin 4) (s : Fin 2048) (k : Fin (S4x2048x1x1.size 3)) :
    h.lift (ix3 b s (0 : Fin 1)) k = ix4 b s (0 : Fin 1) (0 : Fin 1) := by
  funext c; apply Fin.ext
  match c with
  | ⟨0, _⟩ => rfl
  | ⟨1, _⟩ => rfl
  | ⟨2, _⟩ => rfl
  | ⟨3, _⟩ => show k.val = 0; have := k.isLt; change k.val < 1 at this; omega

/-- A reduce by `and` from the one bit over an axis of size one is the operand's one element there. -/
theorem reduce_and_at (x : IVec S4x2048x1x1 1) (b : Fin 4) (s : Fin 2048) :
    Host.reduce IntOp.andi x (ReadP.val_main_call1_c_3 (F := Ideal)) reducesTo_S4x2048x1x1_S4x2048x1_d3 h_S_ (ix3 b s (0 : Fin 1))
      = x (ix4 b s (0 : Fin 1) (0 : Fin 1)) := by
  have h : S4x2048x1x1.Reduces [3] S4x2048x1 := by decide
  rw [Host.reduce_eq_fold_single IntOp.andi x _ reducesTo_S4x2048x1x1_S4x2048x1_d3 h h_S_]
  have hf : (x ∘ h.lift (ix3 b s (0 : Fin 1))) = fun _ : Fin 1 => x (ix4 b s (0 : Fin 1) (0 : Fin 1)) :=
    funext fun k => congrArg x (lift_one h b s k)
  rw [hf]
  show (Finset.univ : Finset (Fin 1)).fold IntOp.andi (1#1) (fun _ : Fin 1 => x (ix4 b s (0 : Fin 1) (0 : Fin 1))) = _
  rw [Finset.univ_unique, Finset.fold_singleton]
  show x (ix4 b s (0 : Fin 1) (0 : Fin 1)) &&& 1#1 = _
  generalize x (ix4 b s (0 : Fin 1) (0 : Fin 1)) = v
  revert v; decide

/-- With the label in range the fill's bit at token `(b, s)` is one. -/
theorem inRange_at (x1 : (⟨S4x2048, .i32⟩ : BufTy).Contents (Elt Ideal)) (b : Fin 4) (s : Fin 2048)
    (h : 0 ≤ (x1 (ix2 b s)).toInt ∧ (x1 (ix2 b s)).toInt < 32000) :
    ReadP.val_main_call1_v12 (F := Ideal) x1 (ix3 b s (0 : Fin 1)) = 1#1 := by
  unfold ReadP.val_main_call1_v12
  rw [reduce_and_at, ReadP.val_main_call1_v11_apply, ReadP.val_main_call1_v7_apply, ReadP.val_main_call1_v10_apply,
    startIdx_at x1 b s h, ReadP.val_main_call1_v6_apply, ReadP.val_main_call1_c_2_apply, ReadP.val_main_call1_v9_apply,
    ReadP.val_main_call1_v8_apply, ReadP.val_main_call1_c_1_apply]
  exact label_in_range _ h

/-- The gather with batching axes `(b, s)` and the start index on the column axis, read at `(b, s, 0)`: the operand at
    `(b, s, n)` where `n` is the start index read signed and clamped into `[0, 31999]`. On the two batching axes the
    start is zero and the batching coordinate is the result's; on the collapsed column axis only the start remains. -/
theorem gather_at {α : Type} {w : Nat} (x : S4x2048x32000.Idx → α) (idx : IVec S4x2048x1x1 w) (b : Fin 4) (s : Fin 2048) :
    Host.gather gather_S4x2048x32000_S4x2048x1x1_S4x2048x1_n_2_01_01_2_3_111 x idx (ix3 b s (0 : Fin 1))
      = x (ix3 b s (⟨min (idx (ix4 b s (0 : Fin 1) (0 : Fin 1))).toInt.toNat 31999, by omega⟩ : Fin 32000)) := by
  have hb0 : (0 : Fin S4x2048x32000.rank) ∈ gather_S4x2048x32000_S4x2048x1x1_S4x2048x1_n_2_01_01_2_3_111.operandBatchingDims :=
    show (0 : Fin 3) ∈ ([0, 1] : List (Fin 3)) by decide
  have hb1 : (1 : Fin S4x2048x32000.rank) ∈ gather_S4x2048x32000_S4x2048x1x1_S4x2048x1_n_2_01_01_2_3_111.operandBatchingDims :=
    show (1 : Fin 3) ∈ ([0, 1] : List (Fin 3)) by decide
  have hb2 : (2 : Fin S4x2048x32000.rank) ∉ gather_S4x2048x32000_S4x2048x1x1_S4x2048x1_n_2_01_01_2_3_111.operandBatchingDims :=
    show (2 : Fin 3) ∉ ([0, 1] : List (Fin 3)) by decide
  have hc2 : (2 : Fin S4x2048x32000.rank) ∈ gather_S4x2048x32000_S4x2048x1x1_S4x2048x1_n_2_01_01_2_3_111.collapsedSliceDims :=
    show (2 : Fin 3) ∈ ([2] : List (Fin 3)) by decide
  have hm2 : (2 : Fin S4x2048x32000.rank) ∈ gather_S4x2048x32000_S4x2048x1x1_S4x2048x1_n_2_01_01_2_3_111.startIndexMap :=
    show (2 : Fin 3) ∈ ([2] : List (Fin 3)) by decide
  unfold Host.gather
  congr 1
  funext a
  apply Fin.ext
  match a with
  | ⟨0, _⟩ =>
    show GatherDims.start _ (ix3 b s (0 : Fin 1)) idx 0 + GatherDims.batchCoord _ (ix3 b s (0 : Fin 1)) 0
      + GatherDims.offCoord _ (ix3 b s (0 : Fin 1)) 0 = b.val
    rw [GatherDims.start_batching _ _ _ _ hb0,
      GatherDims.offCoord_eq_zero _ _ _ (fun h => ((GatherDims.mem_sKept _ _).mp h).2 hb0), Nat.zero_add, Nat.add_zero]
    unfold GatherDims.batchCoord
    rw [dif_pos hb0]
    rfl
  | ⟨1, _⟩ =>
    show GatherDims.start _ (ix3 b s (0 : Fin 1)) idx 1 + GatherDims.batchCoord _ (ix3 b s (0 : Fin 1)) 1
      + GatherDims.offCoord _ (ix3 b s (0 : Fin 1)) 1 = s.val
    rw [GatherDims.start_batching _ _ _ _ hb1,
      GatherDims.offCoord_eq_zero _ _ _ (fun h => ((GatherDims.mem_sKept _ _).mp h).2 hb1), Nat.zero_add, Nat.add_zero]
    unfold GatherDims.batchCoord
    rw [dif_pos hb1]
    rfl
  | ⟨2, _⟩ =>
    show GatherDims.start _ (ix3 b s (0 : Fin 1)) idx 2 + GatherDims.batchCoord _ (ix3 b s (0 : Fin 1)) 2
      + GatherDims.offCoord _ (ix3 b s (0 : Fin 1)) 2 = min (idx (ix4 b s (0 : Fin 1) (0 : Fin 1))).toInt.toNat 31999
    rw [GatherDims.batchCoord_eq_zero _ _ _ hb2,
      GatherDims.offCoord_eq_zero _ _ _ (fun h => ((GatherDims.mem_sKept _ _).mp h).1 hc2), Nat.add_zero]
    unfold GatherDims.start
    rw [dif_pos hm2]
    have hsi : GatherDims.siIdx gather_S4x2048x32000_S4x2048x1x1_S4x2048x1_n_2_01_01_2_3_111 (ix3 b s (0 : Fin 1))
        ⟨List.idxOf (2 : Fin S4x2048x32000.rank) gather_S4x2048x32000_S4x2048x1x1_S4x2048x1_n_2_01_01_2_3_111.startIndexMap,
          List.idxOf_lt_length_iff.2 hm2⟩ = ix4 b s (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- The labelled column as a column number. -/
def labelCol (w : BitVec 32) (h : 0 ≤ w.toInt ∧ w.toInt < 32000) : Fin 32000 := ⟨w.toNat, (label_toNat w h).1⟩

/-- A label in range is the word of its column's number. -/
theorem label_eq_ofNat (w : BitVec 32) (h : 0 ≤ w.toInt ∧ w.toInt < 32000) : w = BitVec.ofNat 32 (labelCol w h).val := by
  apply BitVec.eq_of_toNat_eq
  rw [BitVec.toNat_ofNat]
  exact (Nat.mod_eq_of_lt w.isLt).symm

/-- With the label in range the gather reads `log_softmax` at the labelled column. -/
theorem gathered_at (x0 : (⟨S4x2048x32000, .f32⟩ : BufTy).Contents (Elt Ideal)) (x1 : (⟨S4x2048, .i32⟩ : BufTy).Contents (Elt Ideal))
    (b : Fin 4) (s : Fin 2048) (h : 0 ≤ (x1 (ix2 b s)).toInt ∧ (x1 (ix2 b s)).toInt < 32000) :
    ReadP.val_main_call1_v13 (F := Ideal) x0 x1 (ix3 b s (0 : Fin 1))
      = ReadP.val_main_v0 (F := Ideal) x0 (ix3 b s (labelCol (x1 (ix2 b s)) h)) := by
  unfold ReadP.val_main_call1_v13
  rw [gather_at]
  refine congrArg (fun k => ReadP.val_main_v0 (F := Ideal) x0 (ix3 b s k)) (Fin.ext ?_)
  show min (ReadP.val_main_call1_v5 (F := Ideal) x1 (ix4 b s (0 : Fin 1) (0 : Fin 1))).toInt.toNat 31999 = (x1 (ix2 b s)).toNat
  rw [startIdx_at x1 b s h]
  exact label_clamp _ h

/-! ## A token's negative log-likelihood, and the whole -/

/-- With the label in range the select takes the gathered value, which is the labelled logit's `log_softmax`; negated,
    it is the row's `nll`. -/
theorem nll_at (x0 : (⟨S4x2048x32000, .f32⟩ : BufTy).Contents (Elt Ideal)) (x1 : (⟨S4x2048, .i32⟩ : BufTy).Contents (Elt Ideal))
    (b : Fin 4) (s : Fin 2048) (h : 0 ≤ (x1 (ix2 b s)).toInt ∧ (x1 (ix2 b s)).toInt < 32000) :
    ReadP.val_main_v4 (F := Ideal) x0 x1 (ix2 b s) = nll (rowOf x0 (ix2 b s)) (x1 (ix2 b s)) := by
  have hi : ReadP.idx_main_v3 (ix2 b s) = ix3 b s (0 : Fin 1) := by
    have hb := b.isLt
    have hs := s.isLt
    funext a; apply Fin.ext
    match a with
    | ⟨0, _⟩ => show (b.val * 2048 + s.val) / 2048 = b.val; omega
    | ⟨1, _⟩ => show (b.val * 2048 + s.val) / 1 % 2048 = s.val; omega
    | ⟨2, _⟩ => rfl
  rw [ReadP.val_main_v4_apply, ReadP.val_main_v3_apply, hi, ReadP.val_main_v2_apply, inRange_at x1 b s h, select_one,
    gathered_at x0 x1 b s h, logSoftmax_at]
  unfold nll
  rw [pick_eq (rowOf x0 (ix2 b s)) (x1 (ix2 b s)) (labelCol (x1 (ix2 b s)) h) (label_eq_ofNat _ h)]
  rfl

/-- With every label in range, the reference's result term is the closed form. -/
theorem val_eq_loss (x0 : (⟨S4x2048x32000, .f32⟩ : BufTy).Contents (Elt Ideal))
    (x1 : (⟨S4x2048, .i32⟩ : BufTy).Contents (Elt Ideal)) (x2 : (⟨S_, .f32⟩ : BufTy).Contents (Elt Ideal))
    (hr : ∀ i : S4x2048.Idx, 0 ≤ (x1 i).toInt ∧ (x1 i).toInt < 32000) :
    Cert.ReferenceIdeal.ReadP.val_main_v12 (F := Ideal) x0 x1 x2 = loss x0 x1 x2 := by
  funext j
  have hn : ∑ i : S4x2048.Idx, ReadP.val_main_v8 (F := Ideal) x0 x1 i = numer x0 x1 := by
    unfold numer term
    refine Finset.sum_congr rfl fun i _ => ?_
    obtain ⟨b, s, rfl⟩ : ∃ (b : Fin 4) (s : Fin 2048), i = ix2 b s := ⟨i 0, i 1, eq_ix2 i⟩
    rw [ReadP.val_main_v8_apply, nll_at x0 x1 b s (hr _), mask_at]
    rfl
  have hd : ∑ i : S4x2048.Idx, ReadP.val_main_v7 (F := Ideal) x1 i = denom x1 := by
    unfold denom
    exact Finset.sum_congr rfl fun i _ => mask_at x1 i
  rw [ReadP.val_main_v12_apply, ReadP.val_main_v11_apply, ReadP.val_main_v9_apply, ReadP.val_main_v10_apply,
    ReadP.val_main_cst_apply, ReadP.val_main_cst_0_apply, hn, hd, Ideal.ofBits_def, Ideal.ofBits_zero_f32, zero_add, zero_add]
  rfl

end Cert.ReferenceIdeal.RefValue

end
-- ==== Proof.PreRange.lean ====
/-
  What the precondition says about the labels: every label word, read signed, lies in [0, 32000).

  The printed precondition is a conjunction of four one-bit words: the two finiteness tests, and the reductions by
  `and` over all tokens of `label ≥ 0` and of `label < 32000` (signed comparisons with broadcast constants). When
  the conjunction is one, each reduction is one, so each token's two comparison bits are one.
-/
import proofs.«408799_j59631325938458_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Range

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- Under the precondition every label is in range. -/
theorem label_range (x0 : FVec Ideal S4x2048x32000 .f32) (x1 : IVec S4x2048 32) (x2 : FVec Ideal S_ .f32)
    (h : Cert.Pre_finite_inputs.fn (F := Ideal) x0 x1 x2 = fun _ => 1#1) :
    ∀ i : S4x2048.Idx, 0 ≤ (x1 i).toInt ∧ (x1 i).toInt < 32000 := by
  intro i
  have h0 := congrFun h ValueIdx.ix0
  dsimp only [Cert.Pre_finite_inputs.fn] at h0
  -- the conjunction of four bits is one: so are the third and the fourth, the two reductions over the labels
  obtain ⟨h11, h14⟩ := IntOp.andi_eq_one.1 h0
  obtain ⟨_, h10⟩ := IntOp.andi_eq_one.1 h11
  -- a reduction by `and` over all tokens that is one has a one at token `i`
  have hge := Host.reduce_andi_all _ _ _ _ _ h10 i
  have hlt := Host.reduce_andi_all _ _ _ _ _ h14 i
  -- the broadcast constants read their scalar at every token
  have e0 : broadcastInDim S4x2048 ![] Facts.bcast_S_S4x2048 (constantI S_ 32 0#32) i = 0#32 :=
    StableHlo.Predicate.bcast_scalar Facts.bcast_S_S4x2048 Facts.h_S_ _ i
  have e1 : broadcastInDim S4x2048 ![] Facts.bcast_S_S4x2048 (constantI S_ 32 32000#32) i = 32000#32 :=
    StableHlo.Predicate.bcast_scalar Facts.bcast_S_S4x2048 Facts.h_S_ _ i
  -- the comparisons at token `i` compare the label word with those constants
  have hge' : IntOp.cmpi .sge (x1 i)
      (broadcastInDim S4x2048 ![] Facts.bcast_S_S4x2048 (constantI S_ 32 0#32) i) = 1#1 := hge
  have hlt' : IntOp.cmpi .slt (x1 i)
      (broadcastInDim S4x2048 ![] Facts.bcast_S_S4x2048 (constantI S_ 32 32000#32) i) = 1#1 := hlt
  rw [e0] at hge'
  rw [e1] at hlt'
  -- read signed, the two constants are the integers 0 and 32000
  have z0 : (0#32 : BitVec 32).toInt = 0 := by decide
  have z1 : (32000#32 : BitVec 32).toInt = 32000 := by decide
  have a := IntOp.cmpi_sge.1 hge'
  have b := IntOp.cmpi_slt.1 hlt'
  rw [z0] at a
  rw [z1] at b
  exact ⟨a, b⟩

end Cert.Pre_finite_inputs.Range

end
-- ==== Proof.lean ====
/-
  Masked mean cross-entropy: a Pallas kernel against its jnp reference, equal over the extended reals.

  Both programs compute, from logits `x` [4, 2048, 32000], labels `t` [4, 2048] and a scale,
      (∑ i, nll (row i) (t i) · keep (t i)) / (∑ i, keep (t i)) / scale
  (Proof/Spec.lean, Proof/Result.lean), where `nll` is the negated log-softmax of the row at the labelled column and
  `keep` drops the rows labelled `0`. The kernel walks the 8192 rows in two runs of 128 blocks of 32 rows, keeping two
  running totals that it resets at the start of a run and writes out at its end (Proof/Pieces.lean, Proof/Payload.lean,
  Proof/Accum.lean, Proof/Final.lean), and the host adds the two runs' totals and divides (Proof/Tail.lean); regrouping
  a finite sum of extended reals changes nothing (Proof/Regroup.lean), so the kernel's result is the closed form
  (Proof/KernelValue.lean), whatever the labels are. The reference gathers the labelled column with an index that it
  wraps when negative and fills when out of range; with every label in [0, 32000), which the precondition states
  (Proof/PreRange.lean), the gather reads the labelled logit and the reference's result is the same closed form
  (Proof/RefValue.lean). The frames of the two kernels are the generated ones, the reference's frame is its run with
  the result dropped, and the ideal pass rewrote nothing.
-/
import proofs.«408799_j59631325938458_2_alg».proof.Defs
import proofs.«408799_j59631325938458_2_alg».proof.Proof.Gen.Kernel
import proofs.«408799_j59631325938458_2_alg».proof.Proof.Gen.Kernel.Frame
import proofs.«408799_j59631325938458_2_alg».proof.Proof.Gen.KernelIdeal
import proofs.«408799_j59631325938458_2_alg».proof.Proof.Gen.KernelIdeal.Frame
import proofs.«408799_j59631325938458_2_alg».proof.Proof.Gen.ReferenceIdeal
import proofs.«408799_j59631325938458_2_alg».proof.Proof.Gen.Pre_finite_inputs
import proofs.«408799_j59631325938458_2_alg».proof.Proof.KernelValue
import proofs.«408799_j59631325938458_2_alg».proof.Proof.RefRun
import proofs.«408799_j59631325938458_2_alg».proof.Proof.RefRead
import proofs.«408799_j59631325938458_2_alg».proof.Proof.RefValue
import proofs.«408799_j59631325938458_2_alg».proof.Proof.PreRange
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, with finite floats and every label in range, both programs end with
    the closed form `loss` of the arguments in their result buffers. -/
theorem algebraic : Cert.algebraic_KernelIdeal_ReferenceIdeal := by
  intro m ρ m' ρ' hpre hagree
  refine ⟨fun c => Cert.MaskedCE.loss (Cert.KernelIdeal.RunValue.X m c) (Cert.KernelIdeal.RunValue.T m c)
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v12_eq, (hagree c).1, (hagree c).2.1, (hagree c).2.2]
  exact Cert.ReferenceIdeal.RefValue.val_eq_loss _ _ _ (Cert.Pre_finite_inputs.Range.label_range _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
